-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x4096x1 : Shape := ⟨3, ![8, 4096, 1]⟩
abbrev S8x4096 : Shape := ⟨2, ![8, 4096]⟩
abbrev S8x1x4096 : Shape := ⟨3, ![8, 1, 4096]⟩
abbrev S1x1024x1 : Shape := ⟨3, ![1, 1024, 1]⟩
abbrev S1x1x1024 : Shape := ⟨3, ![1, 1, 1024]⟩
abbrev S1x1x4096 : Shape := ⟨3, ![1, 1, 4096]⟩
abbrev S1024x1 : Shape := ⟨2, ![1024, 1]⟩
abbrev S1x4096 : Shape := ⟨2, ![1, 4096]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8 : Shape := ⟨1, ![8]⟩

abbrev nBuf : Space → Nat
  | .hbm => 35
  | .vmem => 14
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096x1, .f32⟩
  | .hbm, ⟨6, _⟩ => ⟨S8x4096, .f32⟩
  | .hbm, ⟨7, _⟩ => ⟨S8x4096x1, .f32⟩
  | .hbm, ⟨8, _⟩ => ⟨S8x4096x1, .f32⟩
  | .hbm, ⟨9, _⟩ => ⟨S8x4096, .f32⟩
  | .hbm, ⟨10, _⟩ => ⟨S8x1x4096, .f32⟩
  | .hbm, ⟨11, _⟩ => ⟨S8x4096x1, .f32⟩
  | .hbm, ⟨12, _⟩ => ⟨S8x4096, .f32⟩
  | .hbm, ⟨13, _⟩ => ⟨S8x1x4096, .f32⟩
  | .hbm, ⟨14, _⟩ => ⟨S8x4096x1, .f32⟩
  | .hbm, ⟨15, _⟩ => ⟨S8x1x4096, .f32⟩
  | .hbm, ⟨16, _⟩ => ⟨S8x4096, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .f32⟩
  | .local _ .vmem, ⟨3, _⟩ => ⟨S1x1024x1, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x1x4096, .f32⟩
  | .local _ .vmem, ⟨11, _⟩ => ⟨S1x1x4096, .f32⟩
  | .local _ .vmem, ⟨12, _⟩ => ⟨S1024x1, .f32⟩
  | .local _ .vmem, ⟨13, _⟩ => ⟨S1x4096, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_off1 (i : grid0.Coords) : Fin 2 → Nat :=
  let c0_19 : Index := 0#32
  let arg2 : BitVec 32 := BitVec.ofNat 32 (i 2).val
  let c1024_i32 : BitVec 32 := 1024#32
  let v33 : BitVec 32 := Scalar.muli arg2 c1024_i32
  let v34 : BitVec 32 := v33
  let v35 : Index := Scalar.indexCast v34
  ![0, v35.toNat]
def k0_cond3 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_22 : BitVec 32 := 0#32
  let v46 : BitVec 1 := Scalar.cmpi .ne v45 c0_i32_22
  v46

def k0_cond4 (i : grid0.Coords) : BitVec 1 :=
  let arg1 : BitVec 32 := BitVec.ofNat 32 (i 1).val
  let c3_i32_23 : BitVec 32 := 3#32
  let v47 : BitVec 1 := Scalar.cmpi .eq arg1 c3_i32_23
  let arg2 : BitVec 32 := BitVec.ofNat 32 (i 2).val
  let c3_i32_24 : BitVec 32 := 3#32
  let v48 : BitVec 1 := Scalar.cmpi .eq arg2 c3_i32_24
  let v49 : BitVec 1 := Scalar.andi v47 v48
  let v50 : BitVec 32 := Scalar.extui v49
  let c0_i32_25 : BitVec 32 := 0#32
  let v51 : BitVec 1 := Scalar.cmpi .ne v50 c0_i32_25
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  slices_S8x4096x2_S8x4096x1_0_0_0 : S8x4096x2.Slices ![0, 0, 0] S8x4096x1
  shapeCasts_S8x4096x1_S8x4096 : S8x4096x1.ShapeCasts S8x4096
  bcast_S8x4096_S8x4096x1_0_1 : S8x4096.BroadcastsInDim S8x4096x1 (![0, 1] : Fin 2 → Fin S8x4096x1.rank)
  slices_S8x4096x2_S8x4096x1_0_0_1 : S8x4096x2.Slices ![0, 0, 1] S8x4096x1
  bcast_S8x4096_S8x1x4096_0_2 : S8x4096.BroadcastsInDim S8x1x4096 (![0, 2] : Fin 2 → Fin S8x1x4096.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  h_S1x1024 : 0 < S1x1024.numel
  reduces_S1024x1024_S1024_2 : S1024x1024.Reduces [0] S1024
  shapeCasts_S1024_S1x1024 : S1024.ShapeCasts S1x1024
  shapeCasts_S1x1024_S1x1024 : S1x1024.ShapeCasts S1x1024
  shapeCasts_S1024x1_S1x1024x1 : S1024x1.ShapeCasts S1x1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096_S8_d1 : S8x4096.ReducesTo [1] S8
  h_S_ : 0 < S_.numel
  bcast_S_S8 : S_.BroadcastsInDim S8 (![] : Fin 0 → Fin S8.rank)
  shapeCasts_S8x1x4096_S8x4096 : S8x1x4096.ShapeCasts S8x4096
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S8x4096x1.size a
  hwx0_0 : ∀ i : grid0.Coords, EltTy.bits .f32 = 32 ∨ (Rect.block (s := S8x4096x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S8x4096x1.size a
  hwx0_1 : ∀ i : grid0.Coords, EltTy.bits .f32 = 32 ∨ (Rect.block (s := S8x4096x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x4096x1.size a
  hwx0_4 : ∀ i : grid0.Coords, EltTy.bits .f32 = 32 ∨ (Rect.block (s := S8x4096x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S8x1x4096.size a
  hwx0_5 : ∀ i : grid0.Coords, EltTy.bits .f32 = 32 ∨ (Rect.block (s := S8x1x4096) S1x1x4096.size (cc0_transform_5 i) (hinb0_5 i)).WholeWords (EltTy.packing .f32)

variable [Facts₀]

abbrev win0_0 : Pipeline.Window sig grid0 :=
  Pipeline.Window.ofSpec (Memref.whole main_v2) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8x4096x2 : Shape := ⟨3, ![8, 4096, 2]⟩
abbrev S8x4096x1x2 : Shape := ⟨4, ![8, 4096, 1, 2]⟩
abbrev S8x1x4096x2 : Shape := ⟨4, ![8, 1, 4096, 2]⟩
abbrev S8x4096x4096x2 : Shape := ⟨4, ![8, 4096, 4096, 2]⟩
abbrev S_ : Shape := ⟨0, ![]⟩
abbrev S8x4096x4096 : Shape := ⟨3, ![8, 4096, 4096]⟩
abbrev S8x4096 : Shape := ⟨2, ![8, 4096]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1x2, .f32⟩
  | .hbm, ⟨3, _⟩ => ⟨S8x1x4096x2, .f32⟩
  | .hbm, ⟨4, _⟩ => ⟨S8x4096x4096x2, .f32⟩
  | .hbm, ⟨5, _⟩ => ⟨S8x4096x4096x2, .f32⟩
  | .hbm, ⟨6, _⟩ => ⟨S8x4096x4096x2, .f32⟩
  | .hbm, ⟨7, _⟩ => ⟨S8x4096x4096x2, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S8x4096x2_S8x4096x1x2_0_1_3 : S8x4096x2.BroadcastsInDim S8x4096x1x2 (![0, 1, 3] : Fin 3 → Fin S8x4096x1x2.rank)
  bcast_S8x4096x2_S8x1x4096x2_0_2_3 : S8x4096x2.BroadcastsInDim S8x1x4096x2 (![0, 2, 3] : Fin 3 → Fin S8x1x4096x2.rank)
  bcast_S8x4096x1x2_S8x4096x4096x2_0_1_2_3 : S8x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096

variable [Facts₀]

class Facts : Prop extends Facts₀ where

variable [Facts]
-- ==== Proof.Nearest.lean ====
/-
  Nearest-point distances between two planar point sets, on the extended reals.

  A point set is an array [8, 4096, 2]: eight batches of 4096 points with two coordinates each. For batch `n`,
  point `i` of `X` and point `j` of `Y`, `dist X Y n i j` is the Euclidean distance
  `√((X[n,i,0] − Y[n,j,0])² + (X[n,i,1] − Y[n,j,1])²)`. `rowMin X Y` holds, for each point of `X`, the least
  distance to a point of `Y`; `colMin X Y`, for each point of `Y`, the least distance to a point of `X`. Both
  are minima taken from +∞ over all 4096 points of the other set, so neither depends on the order or on the
  grouping in which the distances are met: what characterises them is that `z` is below the minimum exactly when
  `z` is below every distance (`le_rowMin_iff`, `le_colMin_iff`).
-/
import Idealize.ShloMosaic.PureOps.Ideal
import Idealize.ShloMosaic.PureOps.Ideal.Laws
import Idealize.ShloMosaic.Lib.ValueIdx
import Mathlib.Data.Finset.Fold
import Mathlib.Order.Lattice

noncomputable section

namespace Cert.Nearest

open Idealize.ShloMosaic Idealize.ShloMosaic.ValueIdx

/-- A point set: eight batches of 4096 planar points. -/
abbrev SP : Shape := ⟨3, ![8, 4096, 2]⟩
/-- One value per point of a set. -/
abbrev SM : Shape := ⟨2, ![8, 4096]⟩

/-- The bit pattern of f32's +∞ denotes the top of the extended reals. -/
theorem ofBits_posInf : Ideal.ofBits .f32 0x7F800000#32 = (⊤ : EReal) := by
  simp [Ideal.ofBits, Ideal.ieee]

/-- The Euclidean distance, in batch `n`, between point `i` of `X` and point `j` of `Y`. -/
def dist (X Y : FVec Ideal SP .f32) (n : Fin 8) (i j : Fin 4096) : EReal :=
  Ideal.sqrt ((X (ix3 n i (0 : Fin 2)) - Y (ix3 n j (0 : Fin 2))) * (X (ix3 n i (0 : Fin 2)) - Y (ix3 n j (0 : Fin 2)))
    + (X (ix3 n i (1 : Fin 2)) - Y (ix3 n j (1 : Fin 2))) * (X (ix3 n i (1 : Fin 2)) - Y (ix3 n j (1 : Fin 2))))

/-- For each point of `X`, its distance to the nearest point of `Y`. -/
def rowMin (X Y : FVec Ideal SP .f32) : FVec Ideal SM .f32 :=
  fun p => (Finset.univ : Finset (Fin 4096)).fold min (⊤ : EReal) (fun j => dist X Y (p 0) (p 1) j)

/-- For each point of `Y`, its distance to the nearest point of `X`. -/
def colMin (X Y : FVec Ideal SP .f32) : FVec Ideal SM .f32 :=
  fun p => (Finset.univ : Finset (Fin 4096)).fold min (⊤ : EReal) (fun i => dist X Y (p 0) i (p 1))

/-- `z` is below a point's nearest distance exactly when it is below its distance to every point of `Y`. -/
theorem le_rowMin_iff (X Y : FVec Ideal SP .f32) (n : Fin 8) (i : Fin 4096) (z : EReal) :
    z ≤ rowMin X Y (ix2 n i) ↔ ∀ j : Fin 4096, z ≤ dist X Y n i j := by
  unfold rowMin
  rw [Finset.le_fold_min]
  exact ⟨fun h j => h.2 j (Finset.mem_univ j), fun h => ⟨le_top, fun j _ => h j⟩⟩

/-- `z` is below a point's nearest distance exactly when it is below its distance to every point of `X`. -/
theorem le_colMin_iff (X Y : FVec Ideal SP .f32) (n : Fin 8) (j : Fin 4096) (z : EReal) :
    z ≤ colMin X Y (ix2 n j) ↔ ∀ i : Fin 4096, z ≤ dist X Y n i j := by
  unfold colMin
  rw [Finset.le_fold_min]
  exact ⟨fun h i => h.2 i (Finset.mem_univ i), fun h => ⟨le_top, fun i _ => h i⟩⟩

end Cert.Nearest

end
-- ==== Proof.Names.lean ====
/-
  Names for what one grid point of the kernel sees and leaves.

  The grid has 128 points, run in order; point `t` works on batch `t / 16`, on the rows of tile `t / 4 % 4` and
  on the columns of tile `t % 4`, each tile 1024 wide. At a point the kernel reads two column blocks of the first
  point set (its rows' two coordinates) and two row blocks of the second (its columns' two coordinates). Between
  points it carries two accumulators: `rowAcc`, one running minimum per row of the current row tile, started
  afresh whenever a new row tile begins (`t % 4 = 0`); and `colAcc`, one running minimum per column of the whole
  batch, started afresh whenever a new batch begins (`t % 16 = 0`), of which a point updates only the 1024
  columns of its own column tile (`sliceOf`).
-/
import proofs.«174257_j8254927143419_1_alg».proof.Proof.Gen.KernelIdeal.Frame
import proofs.«174257_j8254927143419_1_alg».proof.Proof.Nearest

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The grid has 8 · 4 · 4 points. -/
theorem N128 : cfg0.N = 128 := N_0

/-- The batch a point works on. -/
def bat (t : Fin cfg0.N) : Fin 8 := ⟨t.val / 16, by have := t.isLt; have := N128; omega⟩
/-- Row `r` of a point's row tile, as a row of the whole set. -/
def rowOf (t : Fin cfg0.N) (r : Fin 1024) : Fin 4096 := ⟨1024 * (t.val / 4 % 4) + r.val, by have := r.isLt; omega⟩
/-- Column `q` of a point's column tile, as a column of the whole set. -/
def colOf (t : Fin cfg0.N) (q : Fin 1024) : Fin 4096 := ⟨1024 * (t.val % 4) + q.val, by have := q.isLt; omega⟩
/-- The point before (the first point is its own predecessor; nothing reads it there). -/
def prev (t : Fin cfg0.N) : Fin cfg0.N := ⟨t.val - 1, Nat.lt_of_le_of_lt (Nat.sub_le _ _) t.isLt⟩

/-- The two point sets, as the program is given them. -/
abbrev X (c : Dev nD) : Vec F S8x4096x2 .f32 := m ((c : Thread nD τ).loc main_arg0)
abbrev Y (c : Dev nD) : Vec F S8x4096x2 .f32 := m ((c : Thread nD τ).loc main_arg1)

/-- The blocks a point reads: the rows' first and second coordinates, the columns' first and second. -/
abbrev xb0 (c : Dev nD) (t : Fin cfg0.N) : Vec F S1x1024x1 .f32 := iblk m c 0 t
abbrev xb1 (c : Dev nD) (t : Fin cfg0.N) : Vec F S1x1024x1 .f32 := iblk m c 1 t
abbrev yb0 (c : Dev nD) (t : Fin cfg0.N) : Vec F S1x1x1024 .f32 := iblk m c 2 t
abbrev yb1 (c : Dev nD) (t : Fin cfg0.N) : Vec F S1x1x1024 .f32 := iblk m c 3 t

/-- What a point leaves: in the two output blocks and in the two accumulators. -/
abbrev out4 (c : Dev nD) (t : Fin cfg0.N) : Vec F S1x1024x1 .f32 := (outsAt0 m c t.val t.isLt).1
abbrev out5 (c : Dev nD) (t : Fin cfg0.N) : Vec F S1x1x4096 .f32 := (outsAt0 m c t.val t.isLt).2.1
abbrev rowAcc (c : Dev nD) (t : Fin cfg0.N) : Vec F S1024x1 .f32 := (outsAt0 m c t.val t.isLt).2.2.1
abbrev colAcc (c : Dev nD) (t : Fin cfg0.N) : Vec F S1x4096 .f32 := (outsAt0 m c t.val t.isLt).2.2.2

/-- What a point finds in the row accumulator: +∞ everywhere where a row tile begins, else what the point before left. -/
def rowBase (c : Dev nD) (t : Fin cfg0.N) : Vec F S1024x1 .f32 :=
  if t.val % 4 = 0 then k0_pay4 else rowAcc m c (prev t)
/-- What a point finds in the column accumulator: +∞ everywhere where a batch begins, else what the point before left. -/
def colBase (c : Dev nD) (t : Fin cfg0.N) : Vec F S1x4096 .f32 :=
  if t.val % 16 = 0 then k0_pay5 else colAcc m c (prev t)

/-- The 1024 columns of a point's column tile, cut out of a full row of 4096. -/
def sliceOf (t : Fin cfg0.N) (v : Vec F S1x4096 .f32) : Vec F S1x1024 .f32 :=
  fun q => v (ix2 (0 : Fin 1) (colOf t (q 1)))

end Cert.KernelIdeal.Near

end
-- ==== Proof.Tile.lean ====
/-
  One tile of the kernel's arithmetic, read entry by entry on the extended reals.

  At a grid point the kernel forms the 1024 × 1024 tile of distances between the rows of its row tile and the columns
  of its column tile, folds each row's least entry into the row accumulator and each column's least entry into the
  column accumulator. Here each of those values is read at one entry: the distance itself, and the two folds by what
  lies below them (`z` is below the new accumulator exactly when it is below the old one and below every entry of the
  row, or of the column).
-/
import proofs.«174257_j8254927143419_1_alg».proof.Proof.Gen.KernelIdeal.Skeleton
import proofs.«174257_j8254927143419_1_alg».proof.Proof.Nearest
import Idealize.ShloMosaic.PureOps.Ideal.Laws
import Idealize.ShloMosaic.Lib.Pipeline.Value
import Idealize.ShloMosaic.Lib.ValueLayout

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

/-! ## Lemmas of this module's own: two layout readings, the least-element reduction as a fold, the two accumulators as values -/

namespace Tile

/-- A column `[a, 1]` spread over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as a column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A least-element reduction along one axis, on the extended reals: the fold of `min`, from the value the
    accumulator's word denotes, over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over a row index `r`, the index with column `q` put back on the dropped second axis is `(r, q)`. -/
theorem lift_axis1 {a b : ℕ} (h : (⟨2, ![a, b]⟩ : Shape).Reduces [1] ⟨1, ![a]⟩) (r : Fin a) (q : Fin b) :
    h.lift (ix1 r) q = ix2 r q := by
  funext c
  match c with
  | ⟨0, _⟩ => exact Fin.ext rfl
  | ⟨1, _⟩ => exact Fin.ext rfl

/-- Over a column index `q`, the index with row `r` put back on the dropped first axis is `(r, q)`. -/
theorem lift_axis0 {a b : ℕ} (h : (⟨2, ![a, b]⟩ : Shape).Reduces [0] ⟨1, ![b]⟩) (q : Fin b) (r : Fin a) :
    h.lift (ix1 q) r = ix2 r q := by
  funext c
  match c with
  | ⟨0, _⟩ => exact Fin.ext rfl
  | ⟨1, _⟩ => exact Fin.ext rfl

/-- The least entry of row `r` of a 1024 × 1024 tile, taken from +∞. -/
theorem rowReduce_apply (T : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 T 0x7F800000#32 h hφ hacc (ix1 r)
      = (Finset.univ : Finset (Fin 1024)).fold min (⊤ : EReal) (fun q => T (ix2 r q)) := by
  refine (multiReduction_minimumf_single T _ h hφ hacc (ix1 r)).trans ?_
  rw [Ideal.ofBits_def, Cert.Nearest.ofBits_posInf]
  exact congrArg (fun f : Fin 1024 → EReal => (Finset.univ : Finset (Fin 1024)).fold min (⊤ : EReal) f)
    (funext fun q => congrArg T (lift_axis1 h r q))

/-- The least entry of column `q` of a 1024 × 1024 tile, taken from +∞. -/
theorem colReduce_apply (T : FVec Ideal S1024x1024 .f32) (h : S1024x1024.Reduces [0] S1024) (hφ : FKind.Formats .f32)
    (hacc : (0x7F800000#32 : BitVec 32) = FKind.minimumf.neutral .f32 hφ) (q : Fin 1024) :
    multiReduction .minimumf [0] S1024 T 0x7F800000#32 h hφ hacc (ix1 q)
      = (Finset.univ : Finset (Fin 1024)).fold min (⊤ : EReal) (fun r => T (ix2 r q)) := by
  refine (multiReduction_minimumf_single T _ h hφ hacc (ix1 q)).trans ?_
  rw [Ideal.ofBits_def, Cert.Nearest.ofBits_posInf]
  exact congrArg (fun f : Fin 1024 → EReal => (Finset.univ : Finset (Fin 1024)).fold min (⊤ : EReal) f)
    (funext fun r => congrArg T (lift_axis0 h q r))

/-- The row accumulator after a point, at row `r`: the least of the old value and the row's entries. -/
theorem pay7_apply (v8 v10 : Vec Ideal S1x1024x1 .f32) (v12 v14 : Vec Ideal S1x1x1024 .f32) (v26 : Vec Ideal S1024x1 .f32)
    (r : Fin 1024) :
    (k0_pay7 (F := Ideal) v8 v10 v12 v14 v26 (ix2 r (0 : Fin 1)) : EReal)
      = min (v26 (ix2 r (0 : Fin 1)) : EReal)
          ((Finset.univ : Finset (Fin 1024)).fold min (⊤ : EReal) (fun q => k0_pay6 (F := Ideal) v8 v10 v12 v14 (ix2 r q))) := by
  unfold k0_pay7
  refine (congrFun (shapeCast_self _ _) _).trans ?_
  refine congrArg (min (v26 (ix2 r (0 : Fin 1)) : EReal)) ?_
  refine (shapeCast_a_a1_apply _ _ r (0 : Fin 1)).trans ?_
  exact rowReduce_apply _ _ _ _ r

/-- The column accumulator's slice after a point, at column `q`: the least of the old value and the column's entries. -/
theorem pay1_apply (v25 : FVec Ideal S1024x1024 .f32) (v36 : Vec Ideal S1x1024 .f32) (q : Fin 1024) :
    (k0_pay1 (F := Ideal) v25 v36 (ix2 (0 : Fin 1) q) : EReal)
      = min (v36 (ix2 (0 : Fin 1) q) : EReal)
          ((Finset.univ : Finset (Fin 1024)).fold min (⊤ : EReal) (fun r => v25 (ix2 r q))) := by
  unfold k0_pay1
  refine (congrFun (shapeCast_self _ _) _).trans ?_
  refine congrArg (min (v36 (ix2 (0 : Fin 1) q) : EReal)) ?_
  refine (shapeCast_a_1a_apply _ _ (0 : Fin 1) q).trans ?_
  exact colReduce_apply _ _ _ _ q
end Tile

open Tile

/-! ## The payloads at an entry -/

/-- An entry of the distance tile: the distance between row `r` and column `q`, from the four blocks read. -/
theorem pay6_apply (v8 v10 : Vec Ideal S1x1024x1 .f32) (v12 v14 : Vec Ideal S1x1x1024 .f32) (r q : Fin 1024) :
    (k0_pay6 (F := Ideal) v8 v10 v12 v14 (ix2 r q) : EReal)
      = Ideal.sqrt (((v8 (ix3 (0 : Fin 1) r (0 : Fin 1)) : EReal) - (v12 (ix3 (0 : Fin 1) (0 : Fin 1) q) : EReal))
            * ((v8 (ix3 (0 : Fin 1) r (0 : Fin 1)) : EReal) - (v12 (ix3 (0 : Fin 1) (0 : Fin 1) q) : EReal))
          + ((v10 (ix3 (0 : Fin 1) r (0 : Fin 1)) : EReal) - (v14 (ix3 (0 : Fin 1) (0 : Fin 1) q) : EReal))
            * ((v10 (ix3 (0 : Fin 1) r (0 : Fin 1)) : EReal) - (v14 (ix3 (0 : Fin 1) (0 : Fin 1) q) : EReal))) := by
  -- the two column blocks spread along the row, the two row blocks along the column
  have hc : ∀ (v : Vec Ideal S1x1024x1 .f32),
      broadcastTo S1024x1024 (shapeCast S1024x1 v shapeCasts_S1x1024x1_S1024x1) broadcasts_S1024x1_S1024x1024 (ix2 r q)
        = v (ix3 (0 : Fin 1) r (0 : Fin 1)) := fun v =>
    (broadcastTo_a1_ab_apply _ _ r q).trans (shapeCast_1ab_ab_apply v _ r (0 : Fin 1))
  have hr : ∀ (v : Vec Ideal S1x1x1024 .f32),
      broadcastTo S1024x1024 (shapeCast S1x1024 v shapeCasts_S1x1x1024_S1x1024) broadcasts_S1x1024_S1024x1024 (ix2 r q)
        = v (ix3 (0 : Fin 1) (0 : Fin 1) q) := fun v =>
    (broadcastTo_1b_ab_apply _ _ r q).trans (shapeCast_1ab_ab_apply v _ (0 : Fin 1) q)
  unfold k0_pay6
  show Ideal.sqrt ((_ - _) * (_ - _) + (_ - _) * (_ - _)) = _
  rw [hc v8, hc v10, hr v12, hr v14]

/-- The row accumulator after a point: below it lies what is below the old value and below the row's every entry. -/
theorem le_pay7_iff (v8 v10 : Vec Ideal S1x1024x1 .f32) (v12 v14 : Vec Ideal S1x1x1024 .f32) (v26 : Vec Ideal S1024x1 .f32)
    (r : Fin 1024) (z : EReal) :
    z ≤ (k0_pay7 (F := Ideal) v8 v10 v12 v14 v26 (ix2 r (0 : Fin 1)) : EReal)
      ↔ z ≤ (v26 (ix2 r (0 : Fin 1)) : EReal) ∧ ∀ q : Fin 1024, z ≤ (k0_pay6 (F := Ideal) v8 v10 v12 v14 (ix2 r q) : EReal) := by
  rw [pay7_apply, le_min_iff, Finset.le_fold_min]
  exact and_congr Iff.rfl ⟨fun h q => h.2 q (Finset.mem_univ q), fun h => ⟨le_top, fun q _ => h q⟩⟩

/-- The column accumulator's slice after a point: below it lies what is below the old value and below the column's every entry. -/
theorem le_pay1_iff (v25 : FVec Ideal S1024x1024 .f32) (v36 : Vec Ideal S1x1024 .f32) (q : Fin 1024) (z : EReal) :
    z ≤ (k0_pay1 (F := Ideal) v25 v36 (ix2 (0 : Fin 1) q) : EReal)
      ↔ z ≤ (v36 (ix2 (0 : Fin 1) q) : EReal) ∧ ∀ r : Fin 1024, z ≤ (v25 (ix2 r q) : EReal) := by
  rw [pay1_apply, le_min_iff, Finset.le_fold_min]
  exact and_congr Iff.rfl ⟨fun h r => h.2 r (Finset.mem_univ r), fun h => ⟨le_top, fun r _ => h r⟩⟩

/-- A fresh row accumulator holds +∞ everywhere. -/
theorem pay4_apply (p : S1024x1.Idx) : (k0_pay4 (F := Ideal) p : EReal) = ⊤ := by
  unfold k0_pay4
  rw [shapeCast_self]
  exact Cert.Nearest.ofBits_posInf

/-- A fresh column accumulator holds +∞ everywhere. -/
theorem pay5_apply (p : S1x4096.Idx) : (k0_pay5 (F := Ideal) p : EReal) = ⊤ := by
  unfold k0_pay5
  rw [shapeCast_self]
  exact Cert.Nearest.ofBits_posInf

/-- The row accumulator written out as a block [1, 1024, 1]: entry `r` is entry `r`. -/
theorem pay2_apply (v52 : Vec Ideal S1024x1 .f32) (r : Fin 1024) :
    (k0_pay2 (F := Ideal) v52 (ix3 (0 : Fin 1) r (0 : Fin 1)) : EReal) = v52 (ix2 r (0 : Fin 1)) := by
  unfold k0_pay2
  exact shapeCast_ab_1ab_apply _ _ _ _ _

/-- The column accumulator written out as a block [1, 1, 4096]: entry `q` is entry `q`. -/
theorem pay3_apply (v52 : Vec Ideal S1x4096 .f32) (q : Fin 4096) :
    (k0_pay3 (F := Ideal) v52 (ix3 (0 : Fin 1) (0 : Fin 1) q) : EReal) = v52 (ix2 (0 : Fin 1) q) := by
  unfold k0_pay3
  exact shapeCast_ab_1ab_apply _ _ _ _ _

end Cert.KernelIdeal.Near

end
-- ==== Proof.Blocks.lean ====
/-
  The blocks a grid point reads, entry by entry, as entries of the two point sets.

  Before the kernel runs, the program cuts each point set [8, 4096, 2] into its two coordinates, laying the first
  set's as columns [8, 4096, 1] and the second set's as rows [8, 1, 4096]. Point `t` reads rows
  `1024 · (t / 4 % 4) …` of batch `t / 16` from the former and columns `1024 · (t % 4) …` of the same batch from
  the latter. So an entry of a block is an entry of a point set.
-/
import proofs.«174257_j8254927143419_1_alg».proof.Proof.Names
import Idealize.ShloMosaic.Lib.Pipeline.Value
import Idealize.ShloMosaic.Lib.ValueLayout
import Idealize.ShloMosaic.Lib.StableHlo.Run

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## A coordinate of a point set, laid out as a column or as a row -/

/-- Cut coordinate `k` out of a point set, flatten it to [8, 4096] and lay it out as columns [8, 4096, 1]: entry
    `(n, i, 0)` of the result is coordinate `k` of point `i` of batch `n`. -/
theorem colLayout_apply {α : Type} (x : S8x4096x2.Idx → α) (off : Fin 3 → Nat) (hs : S8x4096x2.Slices off S8x4096x1)
    (hc : S8x4096x1.ShapeCasts S8x4096) (hb : S8x4096.BroadcastsInDim S8x4096x1 (![0, 1] : Fin 2 → Fin S8x4096x1.rank))
    (k : Fin 2) (h0 : off 0 = 0) (h1 : off 1 = 0) (h2 : off 2 = k.val) (n : Fin 8) (i : Fin 4096) :
    broadcastInDim S8x4096x1 ![0, 1] hb (shapeCast S8x4096 (extractStridedSlice S8x4096x1 off x hs) hc)
        (ix3 n i (0 : Fin 1)) = x (ix3 n i k) := by
  refine (broadcastInDim_apply _ hb _ (ix3 n i (0 : Fin 1)) (ix2 n i) (fun a => match a with
    | ⟨0, _⟩ => by show n.val = if (8 : Nat) = 1 then 0 else n.val; rw [if_neg (by decide)]
    | ⟨1, _⟩ => by show i.val = if (4096 : Nat) = 1 then 0 else i.val; rw [if_neg (by decide)])).trans ?_
  refine (shapeCast_apply _ hc (ix2 n i) (ix3 n i (0 : Fin 1)) (by
    rw [Shape.rowMajor_val_two, Shape.rowMajor_val_three]
    show (n.val * 4096 + i.val) * 1 + 0 = n.val * 4096 + i.val
    omega)).trans ?_
  exact extractStridedSlice_apply off x hs (ix3 n i (0 : Fin 1)) (ix3 n i k) (fun a => match a with
    | ⟨0, _⟩ => by show n.val = off 0 + n.val; omega
    | ⟨1, _⟩ => by show i.val = off 1 + i.val; omega
    | ⟨2, _⟩ => by show k.val = off 2 + 0; omega)

/-- The same coordinate laid out as rows [8, 1, 4096]: entry `(n, 0, j)` of the result is coordinate `k` of point `j`
    of batch `n`. -/
theorem rowLayout_apply {α : Type} (x : S8x4096x2.Idx → α) (off : Fin 3 → Nat) (hs : S8x4096x2.Slices off S8x4096x1)
    (hc : S8x4096x1.ShapeCasts S8x4096) (hb : S8x4096.BroadcastsInDim S8x1x4096 (![0, 2] : Fin 2 → Fin S8x1x4096.rank))
    (k : Fin 2) (h0 : off 0 = 0) (h1 : off 1 = 0) (h2 : off 2 = k.val) (n : Fin 8) (j : Fin 4096) :
    broadcastInDim S8x1x4096 ![0, 2] hb (shapeCast S8x4096 (extractStridedSlice S8x4096x1 off x hs) hc)
        (ix3 n (0 : Fin 1) j) = x (ix3 n j k) := by
  refine (broadcastInDim_apply _ hb _ (ix3 n (0 : Fin 1) j) (ix2 n j) (fun a => match a with
    | ⟨0, _⟩ => by show n.val = if (8 : Nat) = 1 then 0 else n.val; rw [if_neg (by decide)]
    | ⟨1, _⟩ => by show j.val = if (4096 : Nat) = 1 then 0 else j.val; rw [if_neg (by decide)])).trans ?_
  refine (shapeCast_apply _ hc (ix2 n j) (ix3 n j (0 : Fin 1)) (by
    rw [Shape.rowMajor_val_two, Shape.rowMajor_val_three]
    show (n.val * 4096 + j.val) * 1 + 0 = n.val * 4096 + j.val
    omega)).trans ?_
  exact extractStridedSlice_apply off x hs (ix3 n j (0 : Fin 1)) (ix3 n j k) (fun a => match a with
    | ⟨0, _⟩ => by show n.val = off 0 + n.val; omega
    | ⟨1, _⟩ => by show j.val = off 1 + j.val; omega
    | ⟨2, _⟩ => by show k.val = off 2 + 0; omega)

/-! ## What the region finds in the four arrays it reads -/

/-- The rows' first coordinates: the first point set's coordinate 0 as columns. -/
theorem V_main_v2 (c : Dev nD) : V m c main_v2 = broadcastInDim S8x4096x1 ![0, 1] bcast_S8x4096_S8x4096x1_0_1
      (shapeCast S8x4096 (extractStridedSlice S8x4096x1 ![0, 0, 0] (X m c) slices_S8x4096x2_S8x4096x1_0_0_0) shapeCasts_S8x4096x1_S8x4096) := by
  show StableHlo.after hostOps0 (fun b => m (c, b)) (Proc.devRef .tc main_v2) = _
  after_results
  rfl

/-- The rows' second coordinates: the first point set's coordinate 1 as columns. -/
theorem V_main_v5 (c : Dev nD) : V m c main_v5 = broadcastInDim S8x4096x1 ![0, 1] bcast_S8x4096_S8x4096x1_0_1
      (shapeCast S8x4096 (extractStridedSlice S8x4096x1 ![0, 0, 1] (X m c) slices_S8x4096x2_S8x4096x1_0_0_1) shapeCasts_S8x4096x1_S8x4096) := by
  show StableHlo.after hostOps0 (fun b => m (c, b)) (Proc.devRef .tc main_v5) = _
  after_results
  rfl

/-- The columns' first coordinates: the second point set's coordinate 0 as rows. -/
theorem V_main_v8 (c : Dev nD) : V m c main_v8 = broadcastInDim S8x1x4096 ![0, 2] bcast_S8x4096_S8x1x4096_0_2
      (shapeCast S8x4096 (extractStridedSlice S8x4096x1 ![0, 0, 0] (Y m c) slices_S8x4096x2_S8x4096x1_0_0_0) shapeCasts_S8x4096x1_S8x4096) := by
  show StableHlo.after hostOps0 (fun b => m (c, b)) (Proc.devRef .tc main_v8) = _
  after_results
  rfl

/-- The columns' second coordinates: the second point set's coordinate 1 as rows. -/
theorem V_main_v11 (c : Dev nD) : V m c main_v11 = broadcastInDim S8x1x4096 ![0, 2] bcast_S8x4096_S8x1x4096_0_2
      (shapeCast S8x4096 (extractStridedSlice S8x4096x1 ![0, 0, 1] (Y m c) slices_S8x4096x2_S8x4096x1_0_0_1) shapeCasts_S8x4096x1_S8x4096) := by
  show StableHlo.after hostOps0 (fun b => m (c, b)) (Proc.devRef .tc main_v11) = _
  after_results
  rfl

/-! ## Which block a point reads -/

/-- The block indices over the grid: the two column blocks of point `t` are block `(t / 16, t / 4 % 4, 0)` of
    their arrays, the two row blocks block `(t / 16, 0, t % 4)` of theirs. -/
theorem idx_blocks : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val / 4 % 4 ∧ win0_1.index t (2 : Fin 3) = 0
    ∧ win0_2.index t (0 : Fin 3) = t.val / 16 ∧ win0_2.index t (1 : Fin 3) = 0 ∧ win0_2.index t (2 : Fin 3) = t.val % 4
    ∧ win0_3.index t (0 : Fin 3) = t.val / 16 ∧ win0_3.index t (1 : Fin 3) = 0 ∧ win0_3.index t (2 : Fin 3) = t.val % 4 :=
  (by decide +kernel : ∀ t : Fin grid0.N, _)

/-! ## The four blocks, entry by entry

An entry of a block sits in the array at block index times block size plus the entry's own coordinate, axis by axis;
with the block indices above that is batch `t / 16`, and row `1024 · (t / 4 % 4) + r` or column `1024 · (t % 4) + q`. -/

/-- Row `r` of the first coordinates' block is the first coordinate of that row's point. -/
theorem xb0_apply (c : Dev nD) (t : Fin cfg0.N) (r : Fin 1024) :
    xb0 m c t (ix3 (0 : Fin 1) r (0 : Fin 1)) = X m c (ix3 (bat t) (rowOf t r) (0 : Fin 2)) := by
  show V m c main_v2 (((cfg0.win 0).blk t).view.emb (ix3 (0 : Fin 1) r (0 : Fin 1))) = _
  have e : ((cfg0.win 0).blk t).view.emb (ix3 (0 : Fin 1) r (0 : Fin 1)) = ix3 (bat t) (rowOf t r) (0 : Fin 1) := by
    obtain ⟨e0, e1, e2, -⟩ := idx_blocks t
    funext a; apply Fin.ext
    match a with
    | ⟨0, _⟩ => show win0_0.index t (0 : Fin 3) * 1 + 1 * 0 = t.val / 16; omega
    | ⟨1, _⟩ => show win0_0.index t (1 : Fin 3) * 1024 + 1 * r.val = 1024 * (t.val / 4 % 4) + r.val; omega
    | ⟨2, _⟩ => show win0_0.index t (2 : Fin 3) * 1 + 1 * 0 = 0; omega
  rw [e, V_main_v2]
  exact colLayout_apply (X m c) _ _ _ _ (0 : Fin 2) rfl rfl rfl (bat t) (rowOf t r)

/-- Row `r` of the second coordinates' block is the second coordinate of that row's point. -/
theorem xb1_apply (c : Dev nD) (t : Fin cfg0.N) (r : Fin 1024) :
    xb1 m c t (ix3 (0 : Fin 1) r (0 : Fin 1)) = X m c (ix3 (bat t) (rowOf t r) (1 : Fin 2)) := by
  show V m c main_v5 (((cfg0.win 1).blk t).view.emb (ix3 (0 : Fin 1) r (0 : Fin 1))) = _
  have e : ((cfg0.win 1).blk t).view.emb (ix3 (0 : Fin 1) r (0 : Fin 1)) = ix3 (bat t) (rowOf t r) (0 : Fin 1) := by
    obtain ⟨-, -, -, e0, e1, e2, -⟩ := idx_blocks t
    funext a; apply Fin.ext
    match a with
    | ⟨0, _⟩ => show win0_1.index t (0 : Fin 3) * 1 + 1 * 0 = t.val / 16; omega
    | ⟨1, _⟩ => show win0_1.index t (1 : Fin 3) * 1024 + 1 * r.val = 1024 * (t.val / 4 % 4) + r.val; omega
    | ⟨2, _⟩ => show win0_1.index t (2 : Fin 3) * 1 + 1 * 0 = 0; omega
  rw [e, V_main_v5]
  exact colLayout_apply (X m c) _ _ _ _ (1 : Fin 2) rfl rfl rfl (bat t) (rowOf t r)

/-- Column `q` of the first coordinates' block is the first coordinate of that column's point. -/
theorem yb0_apply (c : Dev nD) (t : Fin cfg0.N) (q : Fin 1024) :
    yb0 m c t (ix3 (0 : Fin 1) (0 : Fin 1) q) = Y m c (ix3 (bat t) (colOf t q) (0 : Fin 2)) := by
  show V m c main_v8 (((cfg0.win 2).blk t).view.emb (ix3 (0 : Fin 1) (0 : Fin 1) q)) = _
  have e : ((cfg0.win 2).blk t).view.emb (ix3 (0 : Fin 1) (0 : Fin 1) q) = ix3 (bat t) (0 : Fin 1) (colOf t q) := by
    obtain ⟨-, -, -, -, -, -, e0, e1, e2, -⟩ := idx_blocks t
    funext a; apply Fin.ext
    match a with
    | ⟨0, _⟩ => show win0_2.index t (0 : Fin 3) * 1 + 1 * 0 = t.val / 16; omega
    | ⟨1, _⟩ => show win0_2.index t (1 : Fin 3) * 1 + 1 * 0 = 0; omega
    | ⟨2, _⟩ => show win0_2.index t (2 : Fin 3) * 1024 + 1 * q.val = 1024 * (t.val % 4) + q.val; omega
  rw [e, V_main_v8]
  exact rowLayout_apply (Y m c) _ _ _ _ (0 : Fin 2) rfl rfl rfl (bat t) (colOf t q)

/-- Column `q` of the second coordinates' block is the second coordinate of that column's point. -/
theorem yb1_apply (c : Dev nD) (t : Fin cfg0.N) (q : Fin 1024) :
    yb1 m c t (ix3 (0 : Fin 1) (0 : Fin 1) q) = Y m c (ix3 (bat t) (colOf t q) (1 : Fin 2)) := by
  show V m c main_v11 (((cfg0.win 3).blk t).view.emb (ix3 (0 : Fin 1) (0 : Fin 1) q)) = _
  have e : ((cfg0.win 3).blk t).view.emb (ix3 (0 : Fin 1) (0 : Fin 1) q) = ix3 (bat t) (0 : Fin 1) (colOf t q) := by
    obtain ⟨-, -, -, -, -, -, -, -, -, e0, e1, e2⟩ := idx_blocks t
    funext a; apply Fin.ext
    match a with
    | ⟨0, _⟩ => show win0_3.index t (0 : Fin 3) * 1 + 1 * 0 = t.val / 16; omega
    | ⟨1, _⟩ => show win0_3.index t (1 : Fin 3) * 1 + 1 * 0 = 0; omega
    | ⟨2, _⟩ => show win0_3.index t (2 : Fin 3) * 1024 + 1 * q.val = 1024 * (t.val % 4) + q.val; omega
  rw [e, V_main_v11]
  exact rowLayout_apply (Y m c) _ _ _ _ (1 : Fin 2) rfl rfl rfl (bat t) (colOf t q)

end Cert.KernelIdeal.Near

end
-- ==== Proof.RowStep.lean ====
/-
  What a grid point does to the row accumulator, and when it is written out.

  Whatever case of its conditionals a point is in, it leaves in the row accumulator the fold of its distance tile's
  row minima into what it found there: +∞ where a row tile begins, else what the point before left. At the last
  column tile of a row tile (`t % 4 = 3`) the accumulator is written out, re-laid as a block [1, 1024, 1].
-/
import proofs.«174257_j8254927143419_1_alg».proof.Proof.Names
import Idealize.ShloMosaic.Lib.Pipeline.Value
import Idealize.ShloMosaic.Lib.Tactic

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The offsets of a whole-buffer access of rank 2 are all zero. -/
theorem rowStep_zero2 : (![0, 0] : Fin 2 → Nat) = fun _ => 0 := funext fun a => by fin_cases a <;> rfl
/-- The offsets of a whole-buffer access of rank 3 are all zero. -/
theorem rowStep_zero3 : (![0, 0, 0] : Fin 3 → Nat) = fun _ => 0 := funext fun a => by fin_cases a <;> rfl

/-! ## One case of the conditionals at a time

Every access below is of a whole buffer: a load reads the buffer's contents, and the last store of a whole buffer
decides what it holds. So in each case the row accumulator ends at the fold `k0_pay7` of the four input blocks into
what the fold's load saw: the +∞ block `k0_pay4` just stored where the accumulator is reset (cases A and D), else
the contents `xs0` the case started from (cases B, C and E). -/

section Pieces
variable (c : Dev nD) (i : grid0.Coords)
  (arg3 : Memref sig .tc .vmem S1x1024x1 .f32) (harg3 : arg3.IsWhole)
  (arg4 : Memref sig .tc .vmem S1x1024x1 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1x1024x1 .f32) (harg7 : arg7.IsWhole)
  (arg8 : Memref sig .tc .vmem S1x1x4096 .f32) (harg8 : arg8.IsWhole)
  (arg9 : Memref sig .tc .vmem S1024x1 .f32) (harg9 : arg9.IsWhole)
  (arg10 : Memref sig .tc .vmem S1x4096 .f32) (harg10 : arg10.IsWhole)

/-- Case A (a batch begins): the accumulator is set to +∞, read back, and the tile's row minima folded in. -/
theorem rowStep_A (hc0 : cond0_0 i) (hc1 : cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32) :
    sout0_A_0 c i arg3 harg3 arg4 harg4 arg5 harg5 arg6 harg6 arg7 harg7 arg8 harg8 arg9 harg9 arg10 harg10 hc0 hc1 hc2 hc3 x0 x1 x2 x3
      = k0_pay7 x0 x1 x2 x3 k0_pay4 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_cons_unit_zero (S := S1024x1) rowStep_zero2, View.readCov_unit_zero (S := S1024x1) _ rowStep_zero2]
  simp only [View.readAt_eq_ld, harg3.read_unread, harg4.read_unread, harg5.read_unread, harg6.read_unread,
    View.ld_unit_zero (S := S1x1024x1) rowStep_zero3, View.ld_unit_zero (S := S1x1x1024) rowStep_zero3]

/-- Case D (a row tile begins inside a batch): as in case A, the accumulator is set to +∞ first. -/
theorem rowStep_D (hc0 : cond0_0 i) (hc1 : ¬cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32)
    (xs1 : Vec F S1x4096 .f32) :
    sout0_D_0 c i arg3 harg3 arg4 harg4 arg5 harg5 arg6 harg6 arg7 harg7 arg8 harg8 arg9 harg9 arg10 harg10 hc0 hc1 hc2 hc3 x0 x1 x2 x3 xs1
      = k0_pay7 x0 x1 x2 x3 k0_pay4 := by
  unfold sout0_D_0
  rw [View.read_writes_eq_canon _ _ _ (scover0_D_0 c i arg3 harg3 arg4 harg4 arg5 harg5 arg6 harg6 arg7 harg7 arg8 harg8 arg9 harg9 arg10 harg10 hc0 hc1 hc2 hc3 x0 x1 x2 x3 xs1)]
  unfold kernelRun0_D
  dsimp only
  sl_unfold_words
  rw [View.canon_cons_unit_zero (S := S1024x1) rowStep_zero2, View.readCov_unit_zero (S := S1024x1) _ rowStep_zero2]
  simp only [View.readAt_eq_ld, harg3.read_unread, harg4.read_unread, harg5.read_unread, harg6.read_unread,
    View.ld_unit_zero (S := S1x1024x1) rowStep_zero3, View.ld_unit_zero (S := S1x1x1024) rowStep_zero3]

/-- Case B (inside a row tile): the tile's row minima are folded into what the accumulator held. -/
theorem rowStep_B (hc0 : ¬cond0_0 i) (hc1 : ¬cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32)
    (xs0 : Vec F S1024x1 .f32) (xs1 : Vec F S1x4096 .f32) :
    sout0_B_0 c i arg3 harg3 arg4 harg4 arg5 harg5 arg6 harg6 arg7 harg7 arg8 harg8 arg9 harg9 arg10 harg10 hc0 hc1 hc2 hc3 x0 x1 x2 x3 xs0 xs1
      = k0_pay7 x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 hc2 hc3 x0 x1 x2 x3 xs0 xs1)]
  unfold kernelRun0_B
  dsimp only
  sl_unfold_words
  rw [View.canon_unit_zero (S := S1024x1) rowStep_zero2]
  simp only [View.readAt_eq_ld, harg3.read_unread, harg4.read_unread, harg5.read_unread, harg6.read_unread, harg9.read_unread,
    View.ld_unit_zero (S := S1x1024x1) rowStep_zero3, View.ld_unit_zero (S := S1x1x1024) rowStep_zero3, View.ld_unit_zero (S := S1024x1) rowStep_zero2]

/-- Case C (a row tile ends inside a batch): the accumulator is updated as in case B. -/
theorem rowStep_C (hc0 : ¬cond0_0 i) (hc1 : ¬cond0_1 i) (hc2 : cond0_2 i) (hc3 : ¬cond0_3 i)
    (x0 : Vec F S1x1024x1 .f32) (x1 : Vec F S1x1024x1 .f32) (x2 : Vec F S1x1x1024 .f32) (x3 : Vec F S1x1x1024 .f32)
    (xs0 : Vec F S1024x1 .f32) (xs1 : Vec F S1x4096 .f32) :
    sout0_C_0 c i arg3 harg3 arg4 harg4 arg5 harg5 arg6 harg6 arg7 harg7 arg8 harg8 arg9 harg9 arg10 harg10 hc0 hc1 hc2 hc3 x0 x1 x2 x3 xs0 xs1
      = k0_pay7 x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero (S := S1024x1) rowStep_zero2]
  simp only [View.readAt_eq_ld, harg3.read_unread, harg4.read_unread, harg5.read_unread, harg6.read_unread, harg9.read_unread,
    View.ld_unit_zero (S := S1x1024x1) rowStep_zero3, View.ld_unit_zero (S := S1x1x1024) rowStep_zero3, View.ld_unit_zero (S := S1024x1) rowStep_zero2]

/-- Case E (a batch ends): the accumulator is updated as in case B. -/
theorem rowStep_E (hc0 : ¬cond0_0 i) (hc1 : ¬cond0_1 i) (hc2 : cond0_2 i) (hc3 : cond0_3 i)
    (x0 : Vec F S1x1024x1 .f32) (x1 : Vec F S1x1024x1 .f32) (x2 : Vec F S1x1x1024 .f32) (x3 : Vec F S1x1x1024 .f32)
    (xs0 : Vec F S1024x1 .f32) (xs1 : Vec F S1x4096 .f32) :
    sout0_E_0 c i arg3 harg3 arg4 harg4 arg5 harg5 arg6 harg6 arg7 harg7 arg8 harg8 arg9 harg9 arg10 harg10 hc0 hc1 hc2 hc3 x0 x1 x2 x3 xs0 xs1
      = k0_pay7 x0 x1 x2 x3 xs0 := by
  unfold sout0_E_0
  rw [View.read_writes_eq_canon _ _ _ (scover0_E_0 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero (S := S1024x1) rowStep_zero2]
  simp only [View.readAt_eq_ld, harg3.read_unread, harg4.read_unread, harg5.read_unread, harg6.read_unread, harg9.read_unread,
    View.ld_unit_zero (S := S1x1024x1) rowStep_zero3, View.ld_unit_zero (S := S1x1x1024) rowStep_zero3, View.ld_unit_zero (S := S1024x1) rowStep_zero2]

/-- Case C writes out the accumulator it has just updated, re-laid as a block [1, 1024, 1]. -/
theorem rowStep_out4_C (hc0 : ¬cond0_0 i) (hc1 : ¬cond0_1 i) (hc2 : cond0_2 i) (hc3 : ¬cond0_3 i)
    (x0 : Vec F S1x1024x1 .f32) (x1 : Vec F S1x1024x1 .f32) (x2 : Vec F S1x1x1024 .f32) (x3 : Vec F S1x1x1024 .f32)
    (xs0 : Vec F S1024x1 .f32) (xs1 : Vec F S1x4096 .f32) :
    out0_C_4 c i arg3 harg3 arg4 harg4 arg5 harg5 arg6 harg6 arg7 harg7 arg8 harg8 arg9 harg9 arg10 harg10 hc0 hc1 hc2 hc3 x0 x1 x2 x3 xs0 xs1
      = k0_pay2 (k0_pay7 x0 x1 x2 x3 xs0) := by
  unfold out0_C_4
  rw [View.read_writes_eq_canon _ _ _ (cover0_C_4 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero (S := S1x1024x1) rowStep_zero3]
  simp only [View.readCov_unit_zero (S := S1024x1) _ rowStep_zero2, View.readAt_eq_ld, harg3.read_unread, harg4.read_unread, harg5.read_unread, harg6.read_unread, harg9.read_unread,
    View.ld_unit_zero (S := S1x1024x1) rowStep_zero3, View.ld_unit_zero (S := S1x1x1024) rowStep_zero3, View.ld_unit_zero (S := S1024x1) rowStep_zero2]

/-- Case E writes out the accumulator it has just updated, re-laid as a block [1, 1024, 1]. -/
theorem rowStep_out4_E (hc0 : ¬cond0_0 i) (hc1 : ¬cond0_1 i) (hc2 : cond0_2 i) (hc3 : cond0_3 i)
    (x0 : Vec F S1x1024x1 .f32) (x1 : Vec F S1x1024x1 .f32) (x2 : Vec F S1x1x1024 .f32) (x3 : Vec F S1x1x1024 .f32)
    (xs0 : Vec F S1024x1 .f32) (xs1 : Vec F S1x4096 .f32) :
    out0_E_4 c i arg3 harg3 arg4 harg4 arg5 harg5 arg6 harg6 arg7 harg7 arg8 harg8 arg9 harg9 arg10 harg10 hc0 hc1 hc2 hc3 x0 x1 x2 x3 xs0 xs1
      = k0_pay2 (k0_pay7 x0 x1 x2 x3 xs0) := by
  unfold out0_E_4
  rw [View.read_writes_eq_canon _ _ _ (cover0_E_4 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero (S := S1x1024x1) rowStep_zero3]
  simp only [View.readCov_unit_zero (S := S1024x1) _ rowStep_zero2, View.readAt_eq_ld, harg3.read_unread, harg4.read_unread, harg5.read_unread, harg6.read_unread, harg9.read_unread,
    View.ld_unit_zero (S := S1x1024x1) rowStep_zero3, View.ld_unit_zero (S := S1x1x1024) rowStep_zero3, View.ld_unit_zero (S := S1024x1) rowStep_zero2]

end Pieces

/-! ## At a grid point

The four conditions of a point are decided by `t % 4` and `t % 16`; of their sixteen combinations only five occur,
since `t % 16 = 0` forces `t % 4 = 0` and `t % 16 = 15` forces `t % 4 = 3`. -/

/-- The row accumulator after point `t`. -/
theorem rowAcc_step (c : Dev nD) (t : Fin cfg0.N) :
    rowAcc m c t = k0_pay7 (xb0 m c t) (xb1 m c t) (yb0 m c t) (yb1 m c t) (rowBase m c t) := by
  unfold rowAcc rowBase
  by_cases h0 : t.val % 4 = 0
  · have h2 : ¬t.val % 4 = 3 := by omega
    have h3 : ¬t.val % 16 = 15 := by omega
    rw [if_pos h0]
    by_cases h1 : t.val % 16 = 0
    · rw [outsAt0_A m c t h0 h1 h2 h3]; dsimp only
      exact rowStep_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)
    · rw [outsAt0_D m c t h0 h1 h2 h3]; dsimp only
      exact rowStep_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2
  · have h1 : ¬t.val % 16 = 0 := by omega
    rw [if_neg h0]
    by_cases h2 : t.val % 4 = 3
    · by_cases h3 : t.val % 16 = 15
      · rw [outsAt0_E m c t h0 h1 h2 h3]; dsimp only
        exact rowStep_E (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
      · rw [outsAt0_C m c t h0 h1 h2 h3]; dsimp only
        exact rowStep_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
    · have h3 : ¬t.val % 16 = 15 := by omega
      rw [outsAt0_B m c t h0 h1 h2 h3]; dsimp only
      exact rowStep_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first output's block at a point that writes it. -/
theorem out4_last (c : Dev nD) (t : Fin cfg0.N) (h : t.val % 4 = 3) :
    out4 m c t = k0_pay2 (rowAcc m c t) := by
  have h0 : ¬t.val % 4 = 0 := by omega
  have h1 : ¬t.val % 16 = 0 := by omega
  have h2 : t.val % 4 = 3 := h
  rw [rowAcc_step m c t]
  unfold out4 rowBase
  rw [if_neg h0]
  by_cases h3 : t.val % 16 = 15
  · rw [outsAt0_E m c t h0 h1 h2 h3]; dsimp only
    exact rowStep_out4_E (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1 h2 h3]; dsimp only
    exact rowStep_out4_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Near

end
-- ==== Proof.ColStep.lean ====
/-
  What a grid point does to the column accumulator, and when it is written out.

  Whatever case of its conditionals a point is in, it changes only the 1024 columns of its own column tile: there it
  folds its distance tile's column minima into what it found (+∞ where a batch begins, else what the point before
  left); every other column keeps what the point found. At a batch's last point (`t % 16 = 15`) the accumulator is
  written out, re-laid as a block [1, 1, 4096].
-/
import proofs.«174257_j8254927143419_1_alg».proof.Proof.Names
import Idealize.ShloMosaic.Lib.WritesUnit
import Idealize.ShloMosaic.Lib.Pipeline.Value

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem colStep_zero2 : (![0, 0] : Fin 2 → Nat) = fun _ => 0 := funext fun a => by fin_cases a <;> rfl
theorem colStep_zero3 : (![0, 0, 0] : Fin 3 → Nat) = fun _ => 0 := funext fun a => by fin_cases a <;> rfl

/-- Column `j` of the column tile that begins at column `1024 * k`, as a column of the whole row. -/
def colStep_col (k : ℕ) (hk : k < 4) (j : Fin 1024) : Fin 4096 := ⟨1024 * k + j.val, by have := j.isLt; omega⟩

/-- A load of the 1024 columns from column `1024 * k` on reads exactly those columns. -/
theorem colStep_ld_tile (X : Vec F S1x4096 .f32) {off : Fin 2 → ℕ}
    (inb : ∀ a, off a + (![1, 1024] : Fin 2 → ℕ) a ≤ S1x4096.size a) (k : ℕ) (hk : k < 4)
    (hoff : off = ![0, 1024 * k]) :
    View.ld X (Rect.unit (s := S1x4096) off ![1, 1024] inb)
      = fun p : S1x1024.Idx => X (ix2 (0 : Fin 1) (colStep_col k hk (p 1))) := by
  subst hoff
  funext p
  refine congrArg X ?_
  funext a
  refine Fin.ext ?_
  match a with
  | ⟨0, _⟩ =>
    have h0 : (p 0).val < 1 := (p 0).isLt
    show 0 + 1 * (p 0).val = 0
    omega
  | ⟨1, _⟩ =>
    show 1024 * k + 1 * (p 1).val = 1024 * k + (p 1).val
    omega

/-- One store of a column tile over found contents, read column by column: inside the tile the stored payload,
    outside it what was found. -/
theorem colStep_read_over (M : Memref sig .tc .vmem S1x4096 .f32) (hM : M.IsWhole) (X : Vec F S1x4096 .f32)
    {off : Fin 2 → ℕ} (inb : ∀ a, off a + (![1, 1024] : Fin 2 → ℕ) a ≤ S1x4096.size a)
    (w : S1x1024.Idx → Elt F .f32) (k : ℕ) (hoff : off = ![0, 1024 * k]) (q : Fin 4096) :
    M.view.read (Elt F) (M.view.writes (Elt F) (hM.unread X)
        [(⟨Rect.unit (s := S1x4096) off ![1, 1024] inb, w⟩ : View.Piece (Elt F) S1x4096 .f32)]) (ix2 (0 : Fin 1) q)
      = if q.val / 1024 = k then w (ix2 (0 : Fin 1) (⟨q.val % 1024, Nat.mod_lt _ (by decide)⟩ : Fin 1024))
        else X (ix2 (0 : Fin 1) q) := by
  by_cases hq : q.val / 1024 = k
  · rw [if_pos hq]
    refine View.read_writes_cons_unit_of_mem M.view (hM.unread X) inb w [] (ix2 (0 : Fin 1) q)
      (ix2 (0 : Fin 1) (⟨q.val % 1024, Nat.mod_lt _ (by decide)⟩ : Fin 1024)) hoff ?_
    intro a
    match a with
    | ⟨0, _⟩ => rfl
    | ⟨1, _⟩ => show q.val = 1024 * k + q.val % 1024; omega
  · rw [if_neg hq]
    refine (View.read_writes_cons_unit_of_not_mem M.view (hM.unread X) inb w [] (ix2 (0 : Fin 1) q) hoff 1 ?_).trans ?_
    · show q.val < 1024 * k ∨ 1024 * k + 1024 ≤ q.val
      omega
    · rw [View.writes_nil, hM.read_unread]

/-- One store of the whole row leaves its payload, whatever was there. -/
theorem colStep_read_whole {κ : Kind} {sp : Space} (v : View sig κ sp S1x4096 .f32) (f : v.ty.Contents (Elt F))
    {off : Fin 2 → ℕ} (h : off = fun _ => 0) (inb : ∀ a, off a + S1x4096.size a ≤ S1x4096.size a)
    (w : Vec F S1x4096 .f32) :
    v.read (Elt F) (v.writes (Elt F) f [(⟨Rect.unit (s := S1x4096) off S1x4096.size inb, w⟩ : View.Piece (Elt F) S1x4096 .f32)]) = w :=
by
  subst h
  exact View.read_writes_whole v f w

/-- A store of the whole row and then one of a column tile, read column by column: inside the tile the later
    payload, outside it the earlier one. -/
theorem colStep_read_over_whole {κ : Kind} {sp : Space} (v : View sig κ sp S1x4096 .f32) (f : v.ty.Contents (Elt F))
    {off : Fin 2 → ℕ} (inb : ∀ a, off a + (![1, 1024] : Fin 2 → ℕ) a ≤ S1x4096.size a)
    (w : S1x1024.Idx → Elt F .f32)
    {off0 : Fin 2 → ℕ} (h0 : off0 = fun _ => 0) (inb0 : ∀ a, off0 a + S1x4096.size a ≤ S1x4096.size a)
    (w0 : Vec F S1x4096 .f32) (k : ℕ) (hoff : off = ![0, 1024 * k]) (q : Fin 4096) :
    v.read (Elt F) (v.writes (Elt F) f
        [(⟨Rect.unit (s := S1x4096) off ![1, 1024] inb, w⟩ : View.Piece (Elt F) S1x4096 .f32),
         (⟨Rect.unit (s := S1x4096) off0 S1x4096.size inb0, w0⟩ : View.Piece (Elt F) S1x4096 .f32)]) (ix2 (0 : Fin 1) q)
      = if q.val / 1024 = k then w (ix2 (0 : Fin 1) (⟨q.val % 1024, Nat.mod_lt _ (by decide)⟩ : Fin 1024))
        else w0 (ix2 (0 : Fin 1) q) := by
  by_cases hq : q.val / 1024 = k
  · rw [if_pos hq]
    refine View.read_writes_cons_unit_of_mem v f inb w _ (ix2 (0 : Fin 1) q)
      (ix2 (0 : Fin 1) (⟨q.val % 1024, Nat.mod_lt _ (by decide)⟩ : Fin 1024)) hoff ?_
    intro a
    match a with
    | ⟨0, _⟩ => rfl
    | ⟨1, _⟩ => show q.val = 1024 * k + q.val % 1024; omega
  · rw [if_neg hq]
    refine (View.read_writes_cons_unit_of_not_mem v f inb w _ (ix2 (0 : Fin 1) q) hoff 1 ?_).trans ?_
    · show q.val < 1024 * k ∨ 1024 * k + 1024 ≤ q.val
      omega
    · exact congrFun (colStep_read_whole v f h0 inb0 w0) (ix2 (0 : Fin 1) q)

/-- Case A: the column accumulator is set to +∞ everywhere, then this point's tile is folded in. -/
theorem colStep_A (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : cond0_0 i) (hc1 : cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32)
    (k : ℕ) (hk : k < 4) (hoff : k0_off1 i = ![0, 1024 * k]) (q : Fin 4096) :
    sout0_A_1 c i arg3 harg3 arg4 harg4 arg5 harg5 arg6 harg6 arg7 harg7 arg8 harg8 arg9 harg9 arg10 harg10 hc0 hc1 hc2 hc3 x0 x1 x2 x3 (ix2 (0 : Fin 1) q)
      = if q.val / 1024 = k then
          k0_pay1 (k0_pay6 x0 x1 x2 x3) (fun p : S1x1024.Idx => (k0_pay5 : Vec F S1x4096 .f32) (ix2 (0 : Fin 1) (colStep_col k hk (p 1))))
            (ix2 (0 : Fin 1) (⟨q.val % 1024, Nat.mod_lt _ (by decide)⟩ : Fin 1024))
        else (k0_pay5 : Vec F S1x4096 .f32) (ix2 (0 : Fin 1) q) := by
  unfold sout0_A_1
  unfold kernelRun0_A
  dsimp only
  sl_unfold_run_names
  refine (colStep_read_over_whole VS0_1 VS0_1.junk _ _ colStep_zero2 _ _ k hoff q).trans ?_
  simp only [View.readAt_eq_ld, harg3.read_unread, harg4.read_unread, harg5.read_unread, harg6.read_unread,
    View.ld_unit_zero (S := S1x1024x1) colStep_zero3, View.ld_unit_zero (S := S1x1x1024) colStep_zero3,
    colStep_read_whole _ _ colStep_zero2, colStep_ld_tile _ _ k hk hoff]

/-- Case B: the column accumulator is what the point before left, with this point's tile folded in. -/
theorem colStep_B (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : ¬cond0_0 i) (hc1 : ¬cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32) (xs0 : Vec F S1024x1 .f32) (xs1 : Vec F S1x4096 .f32)
    (k : ℕ) (hk : k < 4) (hoff : k0_off1 i = ![0, 1024 * k]) (q : Fin 4096) :
    sout0_B_1 c i arg3 harg3 arg4 harg4 arg5 harg5 arg6 harg6 arg7 harg7 arg8 harg8 arg9 harg9 arg10 harg10 hc0 hc1 hc2 hc3 x0 x1 x2 x3 xs0 xs1 (ix2 (0 : Fin 1) q)
      = if q.val / 1024 = k then
          k0_pay1 (k0_pay6 x0 x1 x2 x3) (fun p : S1x1024.Idx => xs1 (ix2 (0 : Fin 1) (colStep_col k hk (p 1))))
            (ix2 (0 : Fin 1) (⟨q.val % 1024, Nat.mod_lt _ (by decide)⟩ : Fin 1024))
        else xs1 (ix2 (0 : Fin 1) q) := by
  unfold sout0_B_1
  unfold kernelRun0_B
  dsimp only
  sl_unfold_run_names
  refine (colStep_read_over arg10 harg10 xs1 _ _ k hoff q).trans ?_
  simp only [View.readAt_eq_ld, harg3.read_unread, harg4.read_unread, harg5.read_unread, harg6.read_unread,
    harg10.read_unread, View.ld_unit_zero (S := S1x1024x1) colStep_zero3, View.ld_unit_zero (S := S1x1x1024) colStep_zero3,
    colStep_ld_tile _ _ k hk hoff]

/-- Case C: the column accumulator is what the point before left, with this point's tile folded in. -/
theorem colStep_C (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : ¬cond0_0 i) (hc1 : ¬cond0_1 i) (hc2 : cond0_2 i) (hc3 : ¬cond0_3 i)
    (x0 : Vec F S1x1024x1 .f32) (x1 : Vec F S1x1024x1 .f32) (x2 : Vec F S1x1x1024 .f32) (x3 : Vec F S1x1x1024 .f32) (xs0 : Vec F S1024x1 .f32) (xs1 : Vec F S1x4096 .f32)
    (k : ℕ) (hk : k < 4) (hoff : k0_off1 i = ![0, 1024 * k]) (q : Fin 4096) :
    sout0_C_1 c i arg3 harg3 arg4 harg4 arg5 harg5 arg6 harg6 arg7 harg7 arg8 harg8 arg9 harg9 arg10 harg10 hc0 hc1 hc2 hc3 x0 x1 x2 x3 xs0 xs1 (ix2 (0 : Fin 1) q)
      = if q.val / 1024 = k then
          k0_pay1 (k0_pay6 x0 x1 x2 x3) (fun p : S1x1024.Idx => xs1 (ix2 (0 : Fin 1) (colStep_col k hk (p 1))))
            (ix2 (0 : Fin 1) (⟨q.val % 1024, Nat.mod_lt _ (by decide)⟩ : Fin 1024))
        else xs1 (ix2 (0 : Fin 1) q) := by
  unfold sout0_C_1
  unfold kernelRun0_C
  dsimp only
  sl_unfold_run_names
  refine (colStep_read_over arg10 harg10 xs1 _ _ k hoff q).trans ?_
  simp only [View.readAt_eq_ld, harg3.read_unread, harg4.read_unread, harg5.read_unread, harg6.read_unread,
    harg10.read_unread, View.ld_unit_zero (S := S1x1024x1) colStep_zero3, View.ld_unit_zero (S := S1x1x1024) colStep_zero3,
    colStep_ld_tile _ _ k hk hoff]

/-- Case D: the column accumulator is what the point before left, with this point's tile folded in. -/
theorem colStep_D (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : cond0_0 i) (hc1 : ¬cond0_1 i) (hc2 : ¬cond0_2 i) (hc3 : ¬cond0_3 i)
    (x0 : Vec F S1x1024x1 .f32) (x1 : Vec F S1x1024x1 .f32) (x2 : Vec F S1x1x1024 .f32) (x3 : Vec F S1x1x1024 .f32) (xs1 : Vec F S1x4096 .f32)
    (k : ℕ) (hk : k < 4) (hoff : k0_off1 i = ![0, 1024 * k]) (q : Fin 4096) :
    sout0_D_1 c i arg3 harg3 arg4 harg4 arg5 harg5 arg6 harg6 arg7 harg7 arg8 harg8 arg9 harg9 arg10 harg10 hc0 hc1 hc2 hc3 x0 x1 x2 x3 xs1 (ix2 (0 : Fin 1) q)
      = if q.val / 1024 = k then
          k0_pay1 (k0_pay6 x0 x1 x2 x3) (fun p : S1x1024.Idx => xs1 (ix2 (0 : Fin 1) (colStep_col k hk (p 1))))
            (ix2 (0 : Fin 1) (⟨q.val % 1024, Nat.mod_lt _ (by decide)⟩ : Fin 1024))
        else xs1 (ix2 (0 : Fin 1) q) := by
  unfold sout0_D_1
  unfold kernelRun0_D
  dsimp only
  sl_unfold_run_names
  refine (colStep_read_over arg10 harg10 xs1 _ _ k hoff q).trans ?_
  simp only [View.readAt_eq_ld, harg3.read_unread, harg4.read_unread, harg5.read_unread, harg6.read_unread,
    harg10.read_unread, View.ld_unit_zero (S := S1x1024x1) colStep_zero3, View.ld_unit_zero (S := S1x1x1024) colStep_zero3,
    colStep_ld_tile _ _ k hk hoff]

/-- Case E: the column accumulator is what the point before left, with this point's tile folded in. -/
theorem colStep_E (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x1024 .f32) (x3 : Vec F S1x1x1024 .f32) (xs0 : Vec F S1024x1 .f32) (xs1 : Vec F S1x4096 .f32)
    (k : ℕ) (hk : k < 4) (hoff : k0_off1 i = ![0, 1024 * k]) (q : Fin 4096) :
    sout0_E_1 c i arg3 harg3 arg4 harg4 arg5 harg5 arg6 harg6 arg7 harg7 arg8 harg8 arg9 harg9 arg10 harg10 hc0 hc1 hc2 hc3 x0 x1 x2 x3 xs0 xs1 (ix2 (0 : Fin 1) q)
      = if q.val / 1024 = k then
          k0_pay1 (k0_pay6 x0 x1 x2 x3) (fun p : S1x1024.Idx => xs1 (ix2 (0 : Fin 1) (colStep_col k hk (p 1))))
            (ix2 (0 : Fin 1) (⟨q.val % 1024, Nat.mod_lt _ (by decide)⟩ : Fin 1024))
        else xs1 (ix2 (0 : Fin 1) q) := by
  unfold sout0_E_1
  unfold kernelRun0_E
  dsimp only
  sl_unfold_run_names
  refine (colStep_read_over arg10 harg10 xs1 _ _ k hoff q).trans ?_
  simp only [View.readAt_eq_ld, harg3.read_unread, harg4.read_unread, harg5.read_unread, harg6.read_unread,
    harg10.read_unread, View.ld_unit_zero (S := S1x1024x1) colStep_zero3, View.ld_unit_zero (S := S1x1x1024) colStep_zero3,
    colStep_ld_tile _ _ k hk hoff]

/-- Case E: the second output's block is the column accumulator as this point leaves it, re-laid. -/
theorem colStep_out5_E (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1x1x4096 .f32) (harg8 : arg8.IsWhole) (arg9 : Memref sig .tc .vmem S1024x1 .f32) (harg9 : arg9.IsWhole) (arg10 : Memref sig .tc .vmem S1x4096 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x1024 .f32) (x3 : Vec F S1x1x1024 .f32) (xs0 : Vec F S1024x1 .f32) (xs1 : Vec F S1x4096 .f32) :
    out0_E_5 c i arg3 harg3 arg4 harg4 arg5 harg5 arg6 harg6 arg7 harg7 arg8 harg8 arg9 harg9 arg10 harg10 hc0 hc1 hc2 hc3 x0 x1 x2 x3 xs0 xs1
      = k0_pay3 (sout0_E_1 c i arg3 harg3 arg4 harg4 arg5 harg5 arg6 harg6 arg7 harg7 arg8 harg8 arg9 harg9 arg10 harg10 hc0 hc1 hc2 hc3 x0 x1 x2 x3 xs0 xs1) := by
  unfold out0_E_5
  rw [View.read_writes_eq_canon _ _ _ (cover0_E_5 c i arg3 harg3 arg4 harg4 arg5 harg5 arg6 harg6 arg7 harg7 arg8 harg8 arg9 harg9 arg10 harg10 hc0 hc1 hc2 hc3 x0 x1 x2 x3 xs0 xs1)]
  unfold sout0_E_1
  unfold kernelRun0_E
  dsimp only
  sl_unfold_run_names
  rw [View.canon_unit_zero (S := S1x1x4096) colStep_zero3]
  simp only [View.readAt_eq_ld, View.ld_unit_zero (S := S1x4096) colStep_zero2]

/-- A point's third grid coordinate is its column tile. -/
theorem colStep_coord2 : ∀ t : Fin cfg0.N, ((grid0.coords t) 2).val = t.val % 4 :=
  (by decide +kernel : ∀ t : Fin grid0.N, ((grid0.coords t) 2).val = t.val % 4)

/-- The slice a point loads and stores begins at its column tile's first column. -/
theorem colStep_off (t : Fin cfg0.N) : k0_off1 (grid0.coords t) = ![0, 1024 * (t.val % 4)] :=
  (k0_off1_eq (grid0.coords t)).trans (by rw [colStep_coord2 t])

/-- The column accumulator after point `t`, column by column. -/
theorem colAcc_step (c : Dev nD) (t : Fin cfg0.N) (q : Fin 4096) :
    colAcc m c t (ix2 (0 : Fin 1) q)
      = if q.val / 1024 = t.val % 4 then
          k0_pay1 (k0_pay6 (xb0 m c t) (xb1 m c t) (yb0 m c t) (yb1 m c t)) (sliceOf t (colBase m c t))
            (ix2 (0 : Fin 1) (⟨q.val % 1024, Nat.mod_lt _ (by decide)⟩ : Fin 1024))
        else colBase m c t (ix2 (0 : Fin 1) q) := by
  have hN : t.val < 128 := lt_of_lt_of_eq t.isLt N128
  have hk : t.val % 4 < 4 := Nat.mod_lt _ (by decide)
  show (outsAt0 m c t.val t.isLt).2.2.2 (ix2 (0 : Fin 1) q) = _
  by_cases h1 : t.val % 16 = 0
  · have h0 : t.val % 4 = 0 := by omega
    have h2 : ¬t.val % 4 = 3 := by omega
    have h3 : ¬t.val % 16 = 15 := by omega
    unfold colBase
    rw [if_pos h1, outsAt0_A m c t h0 h1 h2 h3]
    dsimp only
    exact colStep_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (xb0 m c t) (xb1 m c t) (yb0 m c t) (yb1 m c t) (t.val % 4) hk (colStep_off t) q
  · unfold colBase
    rw [if_neg h1]
    by_cases h0 : t.val % 4 = 0
    · have h2 : ¬t.val % 4 = 3 := by omega
      have h3 : ¬t.val % 16 = 15 := by omega
      rw [outsAt0_D m c t h0 h1 h2 h3]
      dsimp only
      exact colStep_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (xb0 m c t) (xb1 m c t) (yb0 m c t) (yb1 m c t) (colAcc m c (prev t)) (t.val % 4) hk (colStep_off t) q
    · by_cases h2 : t.val % 4 = 3
      · by_cases h3 : t.val % 16 = 15
        · rw [outsAt0_E m c t h0 h1 h2 h3]
          dsimp only
          exact colStep_E (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (yb0 m c t) (yb1 m c t) (rowAcc m c (prev t)) (colAcc m c (prev t)) (t.val % 4) hk (colStep_off t) q
        · rw [outsAt0_C m c t h0 h1 h2 h3]
          dsimp only
          exact colStep_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xb0 m c t) (xb1 m c t) (yb0 m c t) (yb1 m c t) (rowAcc m c (prev t)) (colAcc m c (prev t)) (t.val % 4) hk (colStep_off t) q
      · have h3 : ¬t.val % 16 = 15 := by omega
        rw [outsAt0_B m c t h0 h1 h2 h3]
        dsimp only
        exact colStep_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (xb0 m c t) (xb1 m c t) (yb0 m c t) (yb1 m c t) (rowAcc m c (prev t)) (colAcc m c (prev t)) (t.val % 4) hk (colStep_off t) q

/-- The second output's block at a point that writes it. -/
theorem out5_last (c : Dev nD) (t : Fin cfg0.N) (h : t.val % 16 = 15) :
    out5 m c t = k0_pay3 (colAcc m c t) := by
  have h0 : ¬t.val % 4 = 0 := by omega
  have h1 : ¬t.val % 16 = 0 := by omega
  have h2 : t.val % 4 = 3 := by omega
  show (outsAt0 m c t.val t.isLt).2.1 = k0_pay3 (outsAt0 m c t.val t.isLt).2.2.2
  rw [outsAt0_E m c t h0 h1 h2 h]
  dsimp only
  exact colStep_out5_E (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h) (xb0 m c t) (xb1 m c t) (yb0 m c t) (yb1 m c t) (rowAcc m c (prev t)) (colAcc m c (prev t))

end Cert.KernelIdeal.Near

end
-- ==== Proof.Accum.lean ====
/-
  What the two accumulators hold after each grid point, on the extended reals.

  The row accumulator after point `t` holds, for row `r` of the point's row tile, the least distance from that row's
  point to the columns met so far in this row tile: the first `1024 · (t % 4) + 1024` columns of the batch. The column
  accumulator holds, for each column of the batch, the least distance to the rows met so far: `1024 · (t / 4 % 4) + 1024`
  rows for a column whose tile has already been visited in the current row tile, `1024 · (t / 4 % 4)` rows for one whose
  tile has not. Both are said through what lies below them (`z` is below a minimum exactly when it is below every
  term), so that a point's step is only a matter of which columns, or rows, it adds: the 1024 of its own tile. Where a
  row tile ends every column has been met, and where a batch ends every row: there the accumulators hold the nearest
  distances `rowMin` and `colMin`.
-/
import proofs.«174257_j8254927143419_1_alg».proof.Proof.Names
import proofs.«174257_j8254927143419_1_alg».proof.Proof.Tile
import proofs.«174257_j8254927143419_1_alg».proof.Proof.Blocks
import proofs.«174257_j8254927143419_1_alg».proof.Proof.RowStep
import proofs.«174257_j8254927143419_1_alg».proof.Proof.ColStep
import Mathlib.Order.Basic

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

open Cert.Nearest

variable (m : (ℓ : Loc nD τ sig) → Buf (Elt Ideal) ℓ)

/-- Every index below `b + 1024` is below `b` or is one of the 1024 that follow `b`. -/
theorem forall_lt_add_tile (P : Fin 4096 → Prop) (b : ℕ) (hb : b + 1024 ≤ 4096) :
    (∀ j : Fin 4096, j.val < b + 1024 → P j)
      ↔ (∀ j : Fin 4096, j.val < b → P j) ∧ ∀ q : Fin 1024, P ⟨b + q.val, by have := q.isLt; omega⟩ := by
  constructor
  · intro h
    exact ⟨fun j hj => h j (by omega), fun q => h _ (by have := q.isLt; show b + q.val < b + 1024; omega)⟩
  · rintro ⟨h1, h2⟩ j hj
    by_cases hlt : j.val < b
    · exact h1 j hlt
    · have e : j = ⟨b + (j.val - b), by omega⟩ := Fin.ext (by show j.val = b + (j.val - b); omega)
      rw [e]
      exact h2 ⟨j.val - b, by omega⟩

/-- An entry of a point's distance tile is the distance between that row's point and that column's point. -/
theorem tile_dist (c : Dev nD) (t : Fin cfg0.N) (r q : Fin 1024) :
    (k0_pay6 (F := Ideal) (xb0 m c t) (xb1 m c t) (yb0 m c t) (yb1 m c t) (ix2 r q) : EReal)
      = dist (X m c) (Y m c) (bat t) (rowOf t r) (colOf t q) := by
  refine (pay6_apply (xb0 m c t) (xb1 m c t) (yb0 m c t) (yb1 m c t) r q).trans ?_
  rw [xb0_apply m c t r, xb1_apply m c t r, yb0_apply m c t q, yb1_apply m c t q]
  rfl

/-! ## The row accumulator -/

/-- After point `t`, below the row accumulator's entry `r` lies exactly what is below the distance from that row's
    point to each of the first `1024 · (t % 4) + 1024` columns. -/
def RowInv (c : Dev nD) (t : Fin cfg0.N) : Prop :=
  ∀ (r : Fin 1024) (z : EReal), z ≤ (rowAcc m c t (ix2 r (0 : Fin 1)) : EReal)
    ↔ ∀ j : Fin 4096, j.val < 1024 * (t.val % 4) + 1024 → z ≤ dist (X m c) (Y m c) (bat t) (rowOf t r) j

/-- One point: it adds the 1024 columns of its column tile to those the point before had met (none, where a row tile begins). -/
theorem row_step (c : Dev nD) (t : Fin cfg0.N) (hprev : t.val % 4 ≠ 0 → RowInv m c (prev t)) : RowInv m c t := by
  intro r z
  have hN := N128
  have ht := t.isLt
  rw [congrFun (rowAcc_step m c t) (ix2 r (0 : Fin 1))]
  rw [le_pay7_iff (xb0 m c t) (xb1 m c t) (yb0 m c t) (yb1 m c t) (rowBase m c t) r z]
  rw [forall_lt_add_tile (fun j => z ≤ dist (X m c) (Y m c) (bat t) (rowOf t r) j) (1024 * (t.val % 4)) (by omega)]
  refine and_congr ?_ (forall_congr' fun q => ?_)
  · by_cases h0 : t.val % 4 = 0
    · unfold rowBase
      rw [if_pos h0, pay4_apply]
      exact ⟨fun _ j hj => absurd hj (by rw [h0]; omega), fun _ => le_top⟩
    · unfold rowBase
      rw [if_neg h0, hprev h0 r z]
      have e1 : bat (prev t) = bat t := Fin.ext (by show (t.val - 1) / 16 = t.val / 16; omega)
      have e2 : rowOf (prev t) r = rowOf t r :=
        Fin.ext (by show 1024 * ((t.val - 1) / 4 % 4) + r.val = 1024 * (t.val / 4 % 4) + r.val; omega)
      have e3 : 1024 * ((prev t).val % 4) + 1024 = 1024 * (t.val % 4) := by
        show 1024 * ((t.val - 1) % 4) + 1024 = 1024 * (t.val % 4); omega
      rw [e1, e2, e3]
  · rw [tile_dist m c t r q]
    rfl

theorem rowInv (c : Dev nD) : ∀ (n : ℕ) (hn : n < cfg0.N), RowInv m c ⟨n, hn⟩
  | 0, hn => row_step m c ⟨0, hn⟩ (fun h => absurd rfl h)
  | n + 1, hn => row_step m c ⟨n + 1, hn⟩ (fun _ => rowInv c n (Nat.lt_of_succ_lt hn))

/-- Where a row tile ends (`t % 4 = 3`) every column has been met: the accumulator holds the rows' nearest distances. -/
theorem rowAcc_last (c : Dev nD) (t : Fin cfg0.N) (h : t.val % 4 = 3) (r : Fin 1024) :
    (rowAcc m c t (ix2 r (0 : Fin 1)) : EReal) = rowMin (X m c) (Y m c) (ix2 (bat t) (rowOf t r)) := by
  have hI : RowInv m c t := rowInv m c t.val t.isLt
  refine eq_of_forall_le_iff fun z => ?_
  rw [hI r z, le_rowMin_iff]
  exact ⟨fun hz j => hz j (by have := j.isLt; omega), fun hz j _ => hz j⟩

/-! ## The column accumulator -/

/-- How many rows of the batch a column has been measured against once point `t` is done. -/
def rowsSeen (t : Fin cfg0.N) (q : Fin 4096) : ℕ :=
  if q.val / 1024 ≤ t.val % 4 then 1024 * (t.val / 4 % 4) + 1024 else 1024 * (t.val / 4 % 4)

/-- … and when point `t` begins. -/
def rowsBefore (t : Fin cfg0.N) (q : Fin 4096) : ℕ :=
  if q.val / 1024 < t.val % 4 then 1024 * (t.val / 4 % 4) + 1024 else 1024 * (t.val / 4 % 4)

/-- After point `t`, below the column accumulator's entry `q` lies exactly what is below the distance to that
    column's point from each of the rows met so far. -/
def ColInv (c : Dev nD) (t : Fin cfg0.N) : Prop :=
  ∀ (q : Fin 4096) (z : EReal), z ≤ (colAcc m c t (ix2 (0 : Fin 1) q) : EReal)
    ↔ ∀ i : Fin 4096, i.val < rowsSeen t q → z ≤ dist (X m c) (Y m c) (bat t) i q

/-- What a point finds: the rows met before it (none, where a batch begins). -/
theorem colBase_iff (c : Dev nD) (t : Fin cfg0.N) (hprev : t.val % 16 ≠ 0 → ColInv m c (prev t)) (q : Fin 4096) (z : EReal) :
    z ≤ (colBase m c t (ix2 (0 : Fin 1) q) : EReal)
      ↔ ∀ i : Fin 4096, i.val < rowsBefore t q → z ≤ dist (X m c) (Y m c) (bat t) i q := by
  have hN := N128
  have ht := t.isLt
  by_cases h0 : t.val % 16 = 0
  · unfold colBase
    rw [if_pos h0, pay5_apply]
    refine ⟨fun _ i hi => absurd hi ?_, fun _ => le_top⟩
    unfold rowsBefore
    split <;> omega
  · unfold colBase
    rw [if_neg h0, hprev h0 q z]
    have e1 : bat (prev t) = bat t := Fin.ext (by show (t.val - 1) / 16 = t.val / 16; omega)
    have e2 : rowsSeen (prev t) q = rowsBefore t q := by
      unfold rowsSeen rowsBefore
      show (if q.val / 1024 ≤ (t.val - 1) % 4 then 1024 * ((t.val - 1) / 4 % 4) + 1024 else 1024 * ((t.val - 1) / 4 % 4))
        = (if q.val / 1024 < t.val % 4 then 1024 * (t.val / 4 % 4) + 1024 else 1024 * (t.val / 4 % 4))
      have hq := q.isLt
      split <;> split <;> omega
    rw [e1, e2]

/-- One point: to the columns of its own column tile it adds the 1024 rows of its row tile; the others it leaves. -/
theorem col_step (c : Dev nD) (t : Fin cfg0.N) (hprev : t.val % 16 ≠ 0 → ColInv m c (prev t)) : ColInv m c t := by
  intro q z
  have hN := N128
  have ht := t.isLt
  have hq := q.isLt
  rw [colAcc_step m c t q]
  by_cases hin : q.val / 1024 = t.val % 4
  · rw [if_pos hin]
    rw [le_pay1_iff (k0_pay6 (F := Ideal) (xb0 m c t) (xb1 m c t) (yb0 m c t) (yb1 m c t)) (sliceOf t (colBase m c t))
      (⟨q.val % 1024, Nat.mod_lt _ (by decide)⟩ : Fin 1024) z]
    have eq : colOf t (⟨q.val % 1024, Nat.mod_lt _ (by decide)⟩ : Fin 1024) = q :=
      Fin.ext (by show 1024 * (t.val % 4) + q.val % 1024 = q.val; omega)
    have hs : (sliceOf t (colBase m c t) (ix2 (0 : Fin 1) (⟨q.val % 1024, Nat.mod_lt _ (by decide)⟩ : Fin 1024)) : EReal)
        = colBase m c t (ix2 (0 : Fin 1) q) := by
      show colBase m c t (ix2 (0 : Fin 1) (colOf t (⟨q.val % 1024, Nat.mod_lt _ (by decide)⟩ : Fin 1024))) = _
      rw [eq]
    rw [hs, colBase_iff m c t hprev q z]
    have hb : rowsBefore t q = 1024 * (t.val / 4 % 4) := by unfold rowsBefore; rw [if_neg (by omega)]
    have ha : rowsSeen t q = 1024 * (t.val / 4 % 4) + 1024 := by unfold rowsSeen; rw [if_pos (by omega)]
    rw [hb, ha, forall_lt_add_tile (fun i => z ≤ dist (X m c) (Y m c) (bat t) i q) (1024 * (t.val / 4 % 4)) (by omega)]
    refine and_congr Iff.rfl (forall_congr' fun r => ?_)
    rw [tile_dist m c t r (⟨q.val % 1024, Nat.mod_lt _ (by decide)⟩ : Fin 1024), eq]
    rfl
  · rw [if_neg hin, colBase_iff m c t hprev q z]
    have e : rowsSeen t q = rowsBefore t q := by
      unfold rowsSeen rowsBefore
      split <;> split <;> omega
    rw [e]

theorem colInv (c : Dev nD) : ∀ (n : ℕ) (hn : n < cfg0.N), ColInv m c ⟨n, hn⟩
  | 0, hn => col_step m c ⟨0, hn⟩ (fun h => absurd rfl h)
  | n + 1, hn => col_step m c ⟨n + 1, hn⟩ (fun _ => colInv c n (Nat.lt_of_succ_lt hn))

/-- Where a batch ends (`t % 16 = 15`) every row has been met: the accumulator holds the columns' nearest distances. -/
theorem colAcc_last (c : Dev nD) (t : Fin cfg0.N) (h : t.val % 16 = 15) (q : Fin 4096) :
    (colAcc m c t (ix2 (0 : Fin 1) q) : EReal) = colMin (X m c) (Y m c) (ix2 (bat t) q) := by
  have hI : ColInv m c t := colInv m c t.val t.isLt
  refine eq_of_forall_le_iff fun z => ?_
  rw [hI q z, le_colMin_iff]
  have hq := q.isLt
  have hs : rowsSeen t q = 4096 := by unfold rowsSeen; rw [if_pos (by omega)]; omega
  rw [hs]
  exact ⟨fun hz i => hz i i.isLt, fun hz i _ => hz i⟩

end Cert.KernelIdeal.Near

end
-- ==== Proof.Means.lean ====
/-
  The last stretch both programs share: from the two arrays of nearest distances to the result.

  Each array [8, 4096] is summed along its points from 0 and divided by 4096, the two means are added, the sum is
  halved, and the result is multiplied by the loss weight 1. The kernel's program and the reference's spell this
  stretch with the same operations and the same constants, so it is kept as ONE function of the two arrays and never
  opened: the two programs agree as soon as they feed it the same arrays.
-/
import Idealize.ShloMosaic.PureOps
import proofs.«174257_j8254927143419_1_alg».proof.Proof.Nearest

noncomputable section

namespace Cert.Nearest

open Idealize.ShloMosaic

/-- One value per batch. -/
abbrev SB : Shape := ⟨1, ![8]⟩
/-- A scalar. -/
abbrev S0 : Shape := ⟨0, ![]⟩

/-- Half the sum of the two arrays' means over their 4096 points, times 1. -/
def halfMeans (hR : SM.ReducesTo [1] SB) (h0 : 0 < S0.numel) (hB : S0.BroadcastsInDim SB (![] : Fin 0 → Fin SB.rank))
    (a b : FVec Ideal SM .f32) : FVec Ideal SB .f32 :=
  mulf
    (Host.divf (F := Ideal)
      (addf
        (Host.divf (F := Ideal) (Host.reduceAdd (F := Ideal) a (constant (F := Ideal) S0 .f32 0x00000000#32) hR h0)
          (broadcastInDim SB ![] hB (constant (F := Ideal) S0 .f32 0x45800000#32)))
        (Host.divf (F := Ideal) (Host.reduceAdd (F := Ideal) b (constant (F := Ideal) S0 .f32 0x00000000#32) hR h0)
          (broadcastInDim SB ![] hB (constant (F := Ideal) S0 .f32 0x45800000#32))))
      (broadcastInDim SB ![] hB (constant (F := Ideal) S0 .f32 0x40000000#32)))
    (broadcastInDim SB ![] hB (constant (F := Ideal) S0 .f32 0x3F800000#32))

end Cert.Nearest

end
-- ==== Proof.Final.lean ====
/-
  What the kernel's program ends holding, on the extended reals.

  The first output array [8, 4096, 1] is written one row tile at a time, where the tile's last column tile has been
  met (`t % 4 = 3`): the block is the row accumulator, which there holds its rows' nearest distances. The second
  [8, 1, 4096] is written one batch at a time, at the batch's last point (`t % 16 = 15`): the block is the column
  accumulator, which there holds the batch's columns' nearest distances. The written blocks tile both arrays, so after
  the run they hold `rowMin` and `colMin` of the two point sets, laid out with a unit axis. The lines after the
  kernel drop that unit axis and apply the last stretch the two programs share.
-/
import proofs.«174257_j8254927143419_1_alg».proof.Proof.Accum
import proofs.«174257_j8254927143419_1_alg».proof.Proof.Means
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Near

open Idealize.ShloMosaic Idealize.ShloMosaic.TcCoe Idealize.SL.Sem Idealize.ShloMosaic.ValueIdx
open Cert.KernelIdeal Cert.KernelIdeal.Gen

open Cert.Nearest
open Idealize.ShloMosaic.Pipeline (Dat)

variable (m : (ℓ : Loc nD τ sig) → Buf (Elt Ideal) ℓ) (ρ : Dev nD → PrngReg)

/-- What the first output array ends holding: each row's nearest distance, with a trailing unit axis. -/
abbrev G4 (c : Dev nD) : S8x4096x1.Idx → Elt Ideal .f32 := fun p => rowMin (X m c) (Y m c) (ix2 (p 0) (p 1))
/-- What the second output array ends holding: each column's nearest distance, with a middle unit axis. -/
abbrev G5 (c : Dev nD) : S8x1x4096.Idx → Elt Ideal .f32 := fun p => colMin (X m c) (Y m c) (ix2 (p 0) (p 2))

/-- Where the two output windows' blocks lie, decided over the grid: batch and row tile for the first, batch for the second. -/
theorem idx4 : ∀ t : Fin cfg0.N, win0_4.index t (0 : Fin 3) = t.val / 16 ∧ win0_4.index t (1 : Fin 3) = t.val / 4 % 4
    ∧ win0_4.index t (2 : Fin 3) = 0 :=
  (by decide +kernel : ∀ t : Fin grid0.N, _)
theorem idx5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-! ## The first output: the rows' nearest distances -/

/-- The block written where a row tile ends, entry by entry. -/
theorem out4_eq (c : Dev nD) (t : Fin cfg0.N) (h3 : t.val % 4 = 3) (y : S1x1024x1.Idx) :
    (out4 m c t y : EReal) = rowMin (X m c) (Y m c) (ix2 (bat t) (rowOf t (y 1))) := by
  obtain ⟨a, r, b, rfl⟩ : ∃ (a : Fin 1) (r : Fin 1024) (b : Fin 1), y = ix3 a r b := ⟨y 0, y 1, y 2, eq_ix3 y⟩
  obtain rfl : a = 0 := Subsingleton.elim _ _
  obtain rfl : b = 0 := Subsingleton.elim _ _
  rw [congrFun (out4_last m c t h3) (ix3 (0 : Fin 1) r (0 : Fin 1)), pay2_apply (rowAcc m c t) r, rowAcc_last m c t h3 r]

theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  obtain ⟨e0, e1, e2⟩ := idx4 t
  show (cfg0.win 4).cut (grid0.coords t) ((dats m 0 c).after 4 t) = _
  rw [after0_4]
  funext j
  show (out4 m c t j : EReal) = G4 m c (((cfg0.win 4).blk t).view.emb j)
  refine (out4_eq m c t h3 j).trans ?_
  show rowMin (X m c) (Y m c) _ = rowMin (X m c) (Y m c) (ix2 ((((cfg0.win 4).blk t).view.emb j) 0) ((((cfg0.win 4).blk t).view.emb j) 1))
  refine congrArg (rowMin (X m c) (Y m c)) (funext fun a => ?_)
  match a with
  | ⟨0, _⟩ =>
    refine Fin.ext ?_
    show t.val / 16 = win0_4.index t (0 : Fin 3) * 1 + 1 * (j 0).val
    have hj : (j 0).val < 1 := (j 0).isLt
    omega
  | ⟨1, _⟩ =>
    refine Fin.ext ?_
    show 1024 * (t.val / 4 % 4) + (j 1).val = win0_4.index t (1 : Fin 3) * 1024 + 1 * (j 1).val
    omega

theorem mem_blk4 (t : Fin cfg0.N) (i : S8x4096x1.Idx) :
    i ∈ ((cfg0.win 4).blk t).view.set
      ↔ ∀ a : Fin 3, win0_4.index t a * S1x1024x1.size a ≤ (i a).val ∧ (i a).val < win0_4.index t a * S1x1024x1.size a + S1x1024x1.size a := by
  show i ∈ ((View.whole main_v12_0).slice (win0_4.rect t)).set ↔ _
  rw [View.set_slice_whole, Rect.mem_set_unit]
  exact Iff.rfl

theorem cover4 (i : S8x4096x1.Idx) : ∃ t : Fin cfg0.N, (cfg0.win 4).flush t = true ∧ i ∈ ((cfg0.win 4).blk t).view.set := by
  have hN := N128
  have hG : grid0.N = 128 := N_0
  have h0 : (i 0).val < 8 := (i 0).isLt
  have h1 : (i 1).val < 4096 := (i 1).isLt
  have h2 : (i 2).val < 1 := (i 2).isLt
  refine ⟨⟨16 * (i 0).val + 4 * ((i 1).val / 1024) + 3, by omega⟩, (flush0_4 _).mpr (by show (16 * (i 0).val + 4 * ((i 1).val / 1024) + 3) % 4 = 3; omega), ?_⟩
  rw [mem_blk4]
  obtain ⟨e0, e1, e2⟩ := idx4 ⟨16 * (i 0).val + 4 * ((i 1).val / 1024) + 3, by omega⟩
  have e0' : win0_4.index ⟨16 * (i 0).val + 4 * ((i 1).val / 1024) + 3, by omega⟩ (0 : Fin 3) = (16 * (i 0).val + 4 * ((i 1).val / 1024) + 3) / 16 := e0
  have e1' : win0_4.index ⟨16 * (i 0).val + 4 * ((i 1).val / 1024) + 3, by omega⟩ (1 : Fin 3) = (16 * (i 0).val + 4 * ((i 1).val / 1024) + 3) / 4 % 4 := e1
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1024 ≤ (i 1).val ∧ (i 1).val < win0_4.index _ (1 : Fin 3) * 1024 + 1024
    omega
  | ⟨2, _⟩ =>
    show win0_4.index _ (2 : Fin 3) * 1 ≤ (i 2).val ∧ (i 2).val < win0_4.index _ (2 : Fin 3) * 1 + 1
    omega

/-- The first output array after the run. -/
theorem final4 (c : Dev nD) : (dats m 0 c).arrAt 4 cfg0.N = G4 m c :=
  (dats m 0 c).arrAt_eq_of_cover 4 (G4 m c) (flushed4_eq m c) (cover4)

/-! ## The second output: the columns' nearest distances -/

/-- The block written where a batch ends, entry by entry. -/
theorem out5_eq (c : Dev nD) (t : Fin cfg0.N) (h15 : t.val % 16 = 15) (y : S1x1x4096.Idx) :
    (out5 m c t y : EReal) = colMin (X m c) (Y m c) (ix2 (bat t) (y 2)) := by
  obtain ⟨a, b, q, rfl⟩ : ∃ (a : Fin 1) (b : Fin 1) (q : Fin 4096), y = ix3 a b q := ⟨y 0, y 1, y 2, eq_ix3 y⟩
  obtain rfl : a = 0 := Subsingleton.elim _ _
  obtain rfl : b = 0 := Subsingleton.elim _ _
  rw [congrFun (out5_last m c t h15) (ix3 (0 : Fin 1) (0 : Fin 1) q), pay3_apply (colAcc m c t) q, colAcc_last m c t h15 q]

theorem flushed5_eq (c : Dev nD) (t : Fin cfg0.N) (hf : (cfg0.win 5).flush t = true) :
    (dats m 0 c).flushed 5 t = ((cfg0.win 5).blk t).view.read (Elt Ideal) (G5 m c) := by
  have h15 : t.val % 16 = 15 := (flush0_5 t).mp hf
  obtain ⟨e0, e1, e2⟩ := idx5 t
  show (cfg0.win 5).cut (grid0.coords t) ((dats m 0 c).after 5 t) = _
  rw [after0_5]
  funext j
  show (out5 m c t j : EReal) = G5 m c (((cfg0.win 5).blk t).view.emb j)
  refine (out5_eq m c t h15 j).trans ?_
  show colMin (X m c) (Y m c) _ = colMin (X m c) (Y m c) (ix2 ((((cfg0.win 5).blk t).view.emb j) 0) ((((cfg0.win 5).blk t).view.emb j) 2))
  refine congrArg (colMin (X m c) (Y m c)) (funext fun a => ?_)
  match a with
  | ⟨0, _⟩ =>
    refine Fin.ext ?_
    show t.val / 16 = win0_5.index t (0 : Fin 3) * 1 + 1 * (j 0).val
    have hj : (j 0).val < 1 := (j 0).isLt
    omega
  | ⟨1, _⟩ =>
    refine Fin.ext ?_
    show (j 2).val = win0_5.index t (2 : Fin 3) * 4096 + 1 * (j 2).val
    omega

theorem mem_blk5 (t : Fin cfg0.N) (i : S8x1x4096.Idx) :
    i ∈ ((cfg0.win 5).blk t).view.set
      ↔ ∀ a : Fin 3, win0_5.index t a * S1x1x4096.size a ≤ (i a).val ∧ (i a).val < win0_5.index t a * S1x1x4096.size a + S1x1x4096.size a := by
  show i ∈ ((View.whole main_v12_1).slice (win0_5.rect t)).set ↔ _
  rw [View.set_slice_whole, Rect.mem_set_unit]
  exact Iff.rfl

theorem cover5 (i : S8x1x4096.Idx) : ∃ t : Fin cfg0.N, (cfg0.win 5).flush t = true ∧ i ∈ ((cfg0.win 5).blk t).view.set := by
  have hN := N128
  have hG : grid0.N = 128 := N_0
  have h0 : (i 0).val < 8 := (i 0).isLt
  have h1 : (i 1).val < 1 := (i 1).isLt
  have h2 : (i 2).val < 4096 := (i 2).isLt
  refine ⟨⟨16 * (i 0).val + 15, by omega⟩, (flush0_5 _).mpr (by show (16 * (i 0).val + 15) % 16 = 15; omega), ?_⟩
  rw [mem_blk5]
  obtain ⟨e0, e1, e2⟩ := idx5 ⟨16 * (i 0).val + 15, by omega⟩
  have e0' : win0_5.index ⟨16 * (i 0).val + 15, by omega⟩ (0 : Fin 3) = (16 * (i 0).val + 15) / 16 := e0
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 1 ≤ (i 1).val ∧ (i 1).val < win0_5.index _ (1 : Fin 3) * 1 + 1
    omega
  | ⟨2, _⟩ =>
    show win0_5.index _ (2 : Fin 3) * 4096 ≤ (i 2).val ∧ (i 2).val < win0_5.index _ (2 : Fin 3) * 4096 + 4096
    omega

/-- The second output array after the run. -/
theorem final5 (c : Dev nD) : (dats m 0 c).arrAt 5 cfg0.N = G5 m c :=
  (dats m 0 c).arrAt_eq_of_cover 5 (G5 m c) (flushed5_eq m c) (cover5)

/-! ## Dropping the unit axis -/

/-- [8, 4096, 1] re-laid as [8, 4096]: entry (n, i) is entry (n, i, 0). -/
theorem drop_last (v : S8x4096x1.Idx → Elt Ideal .f32) (h : S8x4096x1.ShapeCasts S8x4096) (n : Fin 8) (i : Fin 4096) :
    shapeCast S8x4096 v h (ix2 n i) = v (ix3 n i (0 : Fin 1)) :=
  shapeCast_apply v h (ix2 n i) (ix3 n i (0 : Fin 1)) (by
    rw [Shape.rowMajor_val_three, Shape.rowMajor_val_two]
    show (n.val * 4096 + i.val) * 1 + 0 = n.val * 4096 + i.val
    omega)

/-- [8, 1, 4096] re-laid as [8, 4096]: entry (n, q) is entry (n, 0, q). -/
theorem drop_mid (v : S8x1x4096.Idx → Elt Ideal .f32) (h : S8x1x4096.ShapeCasts S8x4096) (n : Fin 8) (q : Fin 4096) :
    shapeCast S8x4096 v h (ix2 n q) = v (ix3 n (0 : Fin 1) q) :=
  shapeCast_apply v h (ix2 n q) (ix3 n (0 : Fin 1) q) (by
    rw [Shape.rowMajor_val_three, Shape.rowMajor_val_two]
    show (n.val * 1 + 0) * 4096 + q.val = n.val * 4096 + q.val
    omega)

/-- The first output array without its unit axis is the rows' nearest distances. -/
theorem rows_flat (c : Dev nD) : shapeCast S8x4096 (G4 m c) shapeCasts_S8x4096x1_S8x4096 = rowMin (X m c) (Y m c) := by
  funext p
  obtain ⟨n, i, rfl⟩ : ∃ (n : Fin 8) (i : Fin 4096), p = ix2 n i := ⟨p 0, p 1, eq_ix2 p⟩
  rw [drop_last]

/-- The second output array without its unit axis is the columns' nearest distances. -/
theorem cols_flat (c : Dev nD) : shapeCast S8x4096 (G5 m c) shapeCasts_S8x1x4096_S8x4096 = colMin (X m c) (Y m c) := by
  funext p
  obtain ⟨n, q, rfl⟩ : ∃ (n : Fin 8) (q : Fin 4096), p = ix2 n q := ⟨p 0, p 1, eq_ix2 p⟩
  rw [drop_mid]

/-! ## The lines after the kernel -/

/-- The program's result: the shared last stretch of the two arrays of nearest distances. -/
theorem result_eq (c : Dev nD) :
    Pipeline.afterTail₀ cfgs (dats m) 0 (V0 m) [hostOps1] c main_v25
      = halfMeans reducesTo_S8x4096_S8_d1 h_S_ bcast_S_S8 (rowMin (X m c) (Y m c)) (colMin (X m c) (Y m c)) := by
  unfold Pipeline.afterTail₀
  show StableHlo.after hostOps1 _ (Proc.devRef .tc main_v25) = _
  after_results
  have e4 : Pipeline.withArrays (cfgs 0).spec c (V0 m c) (fun w => (dats m 0 c).arrAt w (cfgs 0).N) (Proc.tc.devRef main_v12_0)
      = G4 m c := (Pipeline.withArrays_arr spec0 launch0.win.arr_inj c _ _ 4).trans (final4 m c)
  have e5 : Pipeline.withArrays (cfgs 0).spec c (V0 m c) (fun w => (dats m 0 c).arrAt w (cfgs 0).N) (Proc.tc.devRef main_v12_1)
      = G5 m c := (Pipeline.withArrays_arr spec0 launch0.win.arr_inj c _ _ 5).trans (final5 m c)
  show halfMeans reducesTo_S8x4096_S8_d1 h_S_ bcast_S_S8
      (shapeCast S8x4096 (Pipeline.withArrays (cfgs 0).spec c (V0 m c) (fun w => (dats m 0 c).arrAt w (cfgs 0).N) (Proc.tc.devRef main_v12_0)) shapeCasts_S8x4096x1_S8x4096)
      (shapeCast S8x4096 (Pipeline.withArrays (cfgs 0).spec c (V0 m c) (fun w => (dats m 0 c).arrAt w (cfgs 0).N) (Proc.tc.devRef main_v12_1)) shapeCasts_S8x1x4096_S8x4096)
    = _
  rw [e4, e5, rows_flat, cols_flat]

/-! ## The run, read -/

/-- Every weakly fair execution of the program ends with the result at the shared last stretch of the two arrays of
    nearest distances, and with both point sets as they were given. -/
theorem run : θ_run defs (onTc (τ := τ) (main (F := Ideal))) ⟨m, fun _ => 0, ρ⟩ fun r => ∀ c : Dev nD,
      r.2.mem ((c : Thread nD τ).loc main_v25)
        = halfMeans reducesTo_S8x4096_S8_d1 h_S_ bcast_S_S8 (rowMin (X m c) (Y m c)) (colMin (X m c) (Y m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v25 (Pipeline.mem_restRefs_of main_v25 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Near

end
-- ==== Proof.RefSide.lean ====
/-
  The reference program's result, as the shared last stretch of the two arrays of nearest distances.

  The reference forms every difference of a point of the first set and a point of the second, squares it, adds the
  two coordinates' squares from 0, takes the root, and reduces the [8, 4096, 4096] array of distances by `min` from
  +∞ once along the second set's points and once along the first set's. Along either axis that is the least distance
  over all 4096 points, so the two reduced arrays are `rowMin` and `colMin`.
-/
import proofs.«174257_j8254927143419_1_alg».proof.Proof.Gen.ReferenceIdeal.Read
import proofs.«174257_j8254927143419_1_alg».proof.Proof.Nearest
import proofs.«174257_j8254927143419_1_alg».proof.Proof.Means
import Idealize.ShloMosaic.PureOps.Reduce

noncomputable section

namespace Cert.ReferenceIdeal.Near

open Idealize.ShloMosaic Idealize.ShloMosaic.TcCoe Idealize.SL.Sem Idealize.ShloMosaic.ValueIdx
open Cert.ReferenceIdeal Cert.ReferenceIdeal.Gen Cert.ReferenceIdeal.Read Cert.Nearest

/-- The reference's array of roots at batch `n`, point `i` of the first set and point `j` of the second: both
    points are fetched by broadcasts that only copy coordinates, the two squared differences are added from 0, and the
    root is taken, so the element is the Euclidean distance of the two points. -/
theorem root_at (x0 x1 : (⟨S8x4096x2, .f32⟩ : BufTy).Contents (Elt Ideal)) (n : Fin 8) (i j : Fin 4096) :
    val_main_v7 (F := Ideal) x0 x1 (ix3 n i j) = dist x0 x1 n i j := by
  have e0 : ∀ k : Fin 2, idx_main_v0 (idx_main_v2 (idx_main_v6 (ix3 n i j) k)) = ix3 n i k := fun k =>
    funext fun a => Fin.ext (by match a with | ⟨0, _⟩ => rfl | ⟨1, _⟩ => rfl | ⟨2, _⟩ => rfl)
  have e1 : ∀ k : Fin 2, idx_main_v1 (idx_main_v3 (idx_main_v6 (ix3 n i j) k)) = ix3 n j k := fun k =>
    funext fun a => Fin.ext (by match a with | ⟨0, _⟩ => rfl | ⟨1, _⟩ => rfl | ⟨2, _⟩ => rfl)
  rw [val_main_v7_apply, val_main_v6_apply, Fin.sum_univ_two]
  simp only [val_main_v5_apply, val_main_v4_apply, val_main_v2_apply, val_main_v3_apply, val_main_v0_apply,
    val_main_v1_apply, e0, e1, val_main_cst_apply, Ideal.ofBits_def, Ideal.ofBits_zero_f32, zero_add,
    Ideal.hostUnary_sqrt_def, Ideal.subf_def, Ideal.mulf_def]
  rfl

/-- The reduction along the second set's points is each first-set point's nearest distance. -/
theorem ref_rowMin (x0 x1 : (⟨S8x4096x2, .f32⟩ : BufTy).Contents (Elt Ideal)) :
    val_main_v8 (F := Ideal) x0 x1 = rowMin x0 x1 := by
  funext p
  obtain ⟨n, i, rfl⟩ : ∃ (n : Fin 8) (i : Fin 4096), p = ix2 n i := ⟨p 0, p 1, eq_ix2 p⟩
  have h : S8x4096x4096.Reduces [2] S8x4096 := by decide
  have hl : ∀ k : Fin 4096, h.lift (ix2 n i) k = ix3 n i k := fun k =>
    funext fun a => Fin.ext (by match a with | ⟨0, _⟩ => rfl | ⟨1, _⟩ => rfl | ⟨2, _⟩ => rfl)
  -- a `min`-reduce along one axis is the fold of `min`, from the initial +∞ = ⊤, over that axis's 4096 coordinates;
  -- the source index over (n, i) with coordinate k inserted on the last axis is (n, i, k), where the root is the distance
  unfold val_main_v8 rowMin
  rw [Host.reduce_eq_fold_single (FloatOps.minimumf (F := Ideal) (φ := .f32)) _ _
    reducesTo_S8x4096x4096_S8x4096_d2 h h_S_, val_main_cst_0_apply, Ideal.ofBits_def, ofBits_posInf]
  refine Finset.fold_congr (fun (k : Fin 4096) _ => ?_)
  show val_main_v7 (F := Ideal) x0 x1 (h.lift (ix2 n i) k) = dist x0 x1 n i k
  rw [hl k, root_at]

/-- The reduction along the first set's points is each second-set point's nearest distance. -/
theorem ref_colMin (x0 x1 : (⟨S8x4096x2, .f32⟩ : BufTy).Contents (Elt Ideal)) :
    val_main_v12 (F := Ideal) x0 x1 = colMin x0 x1 := by
  funext p
  obtain ⟨n, j, rfl⟩ : ∃ (n : Fin 8) (j : Fin 4096), p = ix2 n j := ⟨p 0, p 1, eq_ix2 p⟩
  have h : S8x4096x4096.Reduces [1] S8x4096 := by decide
  have hl : ∀ k : Fin 4096, h.lift (ix2 n j) k = ix3 n k j := fun k =>
    funext fun a => Fin.ext (by match a with | ⟨0, _⟩ => rfl | ⟨1, _⟩ => rfl | ⟨2, _⟩ => rfl)
  -- the same fold along the middle axis: the source index over (n, j) with coordinate k inserted there is (n, k, j)
  unfold val_main_v12 colMin
  rw [Host.reduce_eq_fold_single (FloatOps.minimumf (F := Ideal) (φ := .f32)) _ _
    reducesTo_S8x4096x4096_S8x4096_d1 h h_S_, val_main_cst_3_apply, Ideal.ofBits_def, ofBits_posInf]
  refine Finset.fold_congr (fun (k : Fin 4096) _ => ?_)
  show val_main_v7 (F := Ideal) x0 x1 (h.lift (ix2 n j) k) = dist x0 x1 n k j
  rw [hl k, root_at]

/-- The reference's result is the shared last stretch of those two arrays. -/
theorem ref_result (x0 x1 : (⟨S8x4096x2, .f32⟩ : BufTy).Contents (Elt Ideal)) :
    val_main_v20 (F := Ideal) x0 x1
      = halfMeans reducesTo_S8x4096_S8_d1 h_S_ bcast_S_S8 (rowMin x0 x1) (colMin x0 x1) := by
  -- past the two `min`-reduces the reference's remaining operations are, one for one, those of `halfMeans`
  rw [← ref_rowMin, ← ref_colMin]
  rfl

end Cert.ReferenceIdeal.Near

end
-- ==== Proof.lean ====
/-
  The two programs compute, for eight batches of two sets of 4096 planar points, half the sum of two means: the mean
  over the first set's points of the distance to the nearest point of the second set, and the mean over the second
  set's points of the distance to the nearest point of the first.

  The reference forms all 4096 × 4096 distances of a batch and reduces them by `min` from +∞ along either axis. The
  kernel never holds them all: it walks the batch's 4 × 4 tiles of 1024 × 1024 distances, keeping one running minimum
  per row of the current row tile and one per column of the batch, each started from +∞, and writes a row tile's
  minima out when its last column tile has been met and the batch's column minima out at the batch's last tile. A
  minimum from +∞ does not depend on the order or the grouping of what it is taken over: `z` lies below it exactly
  when `z` lies below every term. So after the last tile the kernel's two arrays are the reference's two reduced
  arrays (Proof/Accum.lean, Proof/Final.lean against Proof/RefSide.lean), and from there on the two programs run the
  same operations with the same constants (Proof/Means.lean). Over the extended reals this needs no finiteness: no
  law beyond the order's is used, so the precondition is not opened.

  The idealization rewrote nothing, so the kernel's idealized program is its own text read on the extended reals.
-/
import proofs.«174257_j8254927143419_1_alg».proof.Defs
import proofs.«174257_j8254927143419_1_alg».proof.Proof.Gen.Kernel
import proofs.«174257_j8254927143419_1_alg».proof.Proof.Gen.Kernel.Skeleton
import proofs.«174257_j8254927143419_1_alg».proof.Proof.Gen.Kernel.Launch
import proofs.«174257_j8254927143419_1_alg».proof.Proof.Gen.Kernel.Points
import proofs.«174257_j8254927143419_1_alg».proof.Proof.Gen.Kernel.Frame
import proofs.«174257_j8254927143419_1_alg».proof.Proof.Gen.KernelIdeal
import proofs.«174257_j8254927143419_1_alg».proof.Proof.Gen.KernelIdeal.Skeleton
import proofs.«174257_j8254927143419_1_alg».proof.Proof.Gen.KernelIdeal.Launch
import proofs.«174257_j8254927143419_1_alg».proof.Proof.Gen.KernelIdeal.Points
import proofs.«174257_j8254927143419_1_alg».proof.Proof.Gen.KernelIdeal.Frame
import proofs.«174257_j8254927143419_1_alg».proof.Proof.Gen.ReferenceIdeal
import proofs.«174257_j8254927143419_1_alg».proof.Proof.Gen.ReferenceIdeal.Run
import proofs.«174257_j8254927143419_1_alg».proof.Proof.Gen.ReferenceIdeal.Read
import proofs.«174257_j8254927143419_1_alg».proof.Proof.Gen.Pre_finite_inputs
import proofs.«174257_j8254927143419_1_alg».proof.Proof.Final
import proofs.«174257_j8254927143419_1_alg».proof.Proof.RefSide
import Idealize.ShloMosaic.Adequacy
import Idealize.ShloMosaic.Init

noncomputable section

namespace Cert.Proof

open Idealize.ShloMosaic Idealize.SL.Sem

/-- The kernel's program runs and leaves both point sets as given. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves both point sets as given: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- On the extended reals, from point sets that agree, the kernel's program and the reference end with the same result:
    the shared last stretch of the same two arrays of nearest distances. -/
theorem algebraic : Cert.algebraic_KernelIdeal_ReferenceIdeal := by
  intro m ρ m' ρ' _ hagree
  refine ⟨_, Cert.KernelIdeal.Near.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v20_eq (F := Ideal) _ _).trans (Cert.ReferenceIdeal.Near.ref_result _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
